-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part1 {F : FTy → Type} [FloatOps F] (main_arg1 : IVec S2x800000 32) (main_v13 : IVec S_ 1) (main_v16 : IVec S1x800000 1) : IVec S_ 1 :=
  let main_v17 : IVec S1x800000 32 := (extractStridedSlice S1x800000 ![0, 0] · slices_S2x800000_S1x800000_0_0) main_arg1
  let main_c_5 : IVec S_ 32 := constantI S_ 32 50000#32
  let main_v18 : IVec S1x800000 32 := broadcastInDim S1x800000 ![] bcast_S_S1x800000 main_c_5
  let main_v19 : IVec S1x800000 1 := cmpi .slt main_v17 main_v18
  let main_v20 : IVec S1x800000 1 := andi main_v16 main_v19
  let main_c_6 : IVec S_ 1 := constantI S_ 1 1#1
  let main_v21 : IVec S_ 1 := (fun x v => Host.reduce IntOp.andi x v reducesTo_S1x800000_S_d0_1 h_S_) main_v20 main_c_6
  let main_v22 : IVec S_ 1 := andi main_v13 main_v21
  main_v22

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x800000 32 := (extractStridedSlice S1x800000 ![0, 0] · slices_S2x800000_S1x800000_0_0) main_arg1
  let main_c_4 : IVec S_ 32 := constantI S_ 32 0#32
  let main_v15 : IVec S1x800000 32 := broadcastInDim S1x800000 ![] bcast_S_S1x800000 main_c_4
  let main_v16 : IVec S1x800000 1 := cmpi .sge main_v14 main_v15
  fn_part1 (F := F) main_arg1 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S51200x128 : Shape := ⟨2, ![51200, 128]⟩
abbrev S1024x128 : Shape := ⟨2, ![1024, 128]⟩
abbrev S1x800000 : Shape := ⟨2, ![1, 800000]⟩
abbrev S800000 : Shape := ⟨1, ![800000]⟩
abbrev S800768 : Shape := ⟨1, ![800768]⟩
abbrev S1x800768 : Shape := ⟨2, ![1, 800768]⟩
abbrev S800768x128 : Shape := ⟨2, ![800768, 128]⟩
abbrev S1x2048 : Shape := ⟨2, ![1, 2048]⟩
abbrev S2048x128 : Shape := ⟨2, ![2048, 128]⟩
abbrev S1024x1 : Shape := ⟨2, ![1024, 1]⟩
abbrev S1024x2048 : Shape := ⟨2, ![1024, 2048]⟩
abbrev S25600x128 : Shape := ⟨2, ![25600, 128]⟩
abbrev S1x128 : Shape := ⟨2, ![1, 128]⟩

abbrev nBuf : Space → Nat
  | .hbm => 28
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .bf16⟩
  | .hbm, ⟨6, _⟩ => ⟨S_, .i32⟩
  | .hbm, ⟨7, _⟩ => ⟨S_, .f32⟩
  | .hbm, ⟨8, _⟩ => ⟨S51200x128, .f32⟩
  | .hbm, ⟨9, _⟩ => ⟨S51200x128, .bf16⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S_, .i32⟩
  | .hbm, ⟨16, _⟩ => ⟨S800768, .i32⟩
  | .hbm, ⟨17, _⟩ => ⟨S_, .i32⟩
  | .hbm, ⟨18, _⟩ => ⟨S_, .i32⟩
  | .hbm, ⟨19, _⟩ => ⟨S800768, .i32⟩
  | .hbm, ⟨20, _⟩ => ⟨S1x800768, .i32⟩
  | .hbm, ⟨21, _⟩ => ⟨S1x800768, .i32⟩
  | .hbm, ⟨22, _⟩ => ⟨S800768x128, .bf16⟩
  | .hbm, ⟨23, _⟩ => ⟨S51200x128, .f32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .local _ .vmem, ⟨0, _⟩ => ⟨S1024x128, .f32⟩
  | .local _ .vmem, ⟨1, _⟩ => ⟨S1024x128, .f32⟩
  | .local _ .vmem, ⟨2, _⟩ => ⟨S128x128, .bf16⟩
  | .local _ .vmem, ⟨3, _⟩ => ⟨S1024x128, .bf16⟩
  | .local _ .vmem, ⟨4, _⟩ => ⟨S1024x128, .bf16⟩
  | .local _ .vmem, ⟨5, _⟩ => ⟨S51200x128, .bf16⟩
  | .local _ .vmem, ⟨6, _⟩ => ⟨S1x2048, .i32⟩
  | .local _ .vmem, ⟨7, _⟩ => ⟨S1x2048, .i32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x2048, .i32⟩
  | .local _ .vmem, ⟨13, _⟩ => ⟨S1x2048, .i32⟩
  | .local _ .vmem, ⟨14, _⟩ => ⟨S25600x128, .f32⟩
  | .local _ .vmem, ⟨15, _⟩ => ⟨S25600x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![391], ![false]⟩

@[reducible] def k1_t1_loop : Scf.Loop 32 :=
  let c0_i32 : BitVec 32 := 0#32
  let c50_i32 : BitVec 32 := 50#32
  let v4 : BitVec 32 := Scalar.addi c0_i32 c50_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c1024_i32 : BitVec 32 := 1024#32
  let v8 : BitVec 32 := Scalar.muli arg4 c1024_i32
  v8
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c1024_i32 : BitVec 32 := 1024#32
  let v8 : BitVec 32 := Scalar.muli arg4 c1024_i32
  let v9 : BitVec 32 := v8
  let v10 : Index := Scalar.indexCast v9
  let c0_4 : Index := 0#32
  ![v10.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S51200x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 391], ![false, false]⟩

@[reducible] def k2_t1_loop : Scf.Loop 32 :=
  let c0_i32_4 : BitVec 32 := 0#32
  let c25_i32 : BitVec 32 := 25#32
  let v9 : BitVec 32 := Scalar.addi c0_i32_4 c25_i32
  let c1_i32 : BitVec 32 := 1#32
  ⟨c0_i32_4, v9, c1_i32⟩
def k2_mult1 (k2_t1 : Fin k2_t1_loop.trips) : BitVec 32 :=
  let c0_i32_7 : BitVec 32 := 0#32
  let c0_i32_4 : BitVec 32 := 0#32
  let c1_i32 : BitVec 32 := 1#32
  let arg5 : BitVec 32 := Scf.iv c0_i32_4 c1_i32 k2_t1
  let c1_i32_6 : BitVec 32 := 1#32
  let v10 : BitVec 32 := Scalar.muli arg5 c1_i32_6
  let v11 : BitVec 32 := Scalar.addi c0_i32_7 v10
  let c1024_i32 : BitVec 32 := 1024#32
  let v12 : BitVec 32 := Scalar.muli v11 c1024_i32
  v12
def k2_off1 (k2_t1 : Fin k2_t1_loop.trips) : Fin 2 → Nat :=
  let c0_i32_7 : BitVec 32 := 0#32
  let c0_i32_4 : BitVec 32 := 0#32
  let c1_i32 : BitVec 32 := 1#32
  let arg5 : BitVec 32 := Scf.iv c0_i32_4 c1_i32 k2_t1
  let c1_i32_6 : BitVec 32 := 1#32
  let v10 : BitVec 32 := Scalar.muli arg5 c1_i32_6
  let v11 : BitVec 32 := Scalar.addi c0_i32_7 v10
  let c1024_i32 : BitVec 32 := 1024#32
  let v12 : BitVec 32 := Scalar.muli v11 c1024_i32
  let v13 : BitVec 32 := v12
  let v24 : Index := Scalar.indexCast v13
  let c0_8 : Index := 0#32
  ![v24.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S25600x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  transposes_S128x128_S128x128_1_0 : S128x128.Transposes [1, 0] S128x128
  bitsLt_bf16_f32 : FTy.bits .bf16 < FTy.bits .f32
  pads_S50000x128_S51200x128_012000_000 : S50000x128.Pads (![0, 0] : Fin 2 → Nat) ![1200, 0] ![0, 0] S51200x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S1024x128_S1024x128_0_0 : (Rect.unit (s := S1024x128) ![0, 0] S1024x128.size inb_S1024x128_S1024x128_0_0).PackedRows (EltTy.packing .bf16)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  pads_S800000_S800768_07680 : S800000.Pads (![0] : Fin 1 → Nat) ![768] ![0] S800768
  shapeCasts_S800768_S1x800768 : S800768.ShapeCasts S1x800768
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S1024x1_d0_w32 : S1024x1.Iotas .tc 32 [0]
  broadcasts_S1024x1_S1024x2048 : S1024x1.Broadcasts S1024x2048
  broadcasts_S1x2048_S1024x2048 : S1x2048.Broadcasts S1024x2048
  natLt_1_32 : 1 < 32
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S25600x128_S25600x128_0_0 : ∀ a, (![0, 0] : Fin 2 → Nat) a + S25600x128.size a ≤ S25600x128.size a
  h_S25600x128 : 0 < S25600x128.numel
  shapeCasts_S2048x128_S2048x128 : S2048x128.ShapeCasts S2048x128
  slices_S51200x128_S50000x128_0_0 : S51200x128.Slices ![0, 0] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S1024x128_S128x128_S1024x128_1_0_0_1_n_n_wf : DotDims.WF S1024x128 S128x128 S1024x128 [1] [0] [0] [1] [] []
  dot_S1024x2048_S1024x128_S2048x128_0_0_1_1_n_n_wf : DotDims.WF S1024x2048 S1024x128 S2048x128 [0] [0] [1] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S51200x128.size a
  hwx0_0 : ∀ i : grid0.Coords, EltTy.bits .f32 = 32 ∨ (Rect.block (s := S51200x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S51200x128.size a
  hwx0_2 : ∀ i : grid0.Coords, EltTy.bits .bf16 = 32 ∨ (Rect.block (s := S51200x128) S1024x128.size (cc0_transform_2 i) (hinb0_2 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x128.size a ≤ S51200x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S51200x128.size a ≤ S51200x128.size a
  hwx1_0 : ∀ i : grid1.Coords, EltTy.bits .bf16 = 32 ∨ (Rect.block (s := S51200x128) S51200x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x800768.size a
  hwx1_1 : ∀ i : grid1.Coords, EltTy.bits .i32 = 32 ∨ (Rect.block (s := S1x800768) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S800768x128.size a
  hwx1_2 : ∀ i : grid1.Coords, EltTy.bits .bf16 = 32 ∨ (Rect.block (s := S800768x128) S2048x128.size (cc1_transform_2 i) (hinb1_2 i)).WholeWords (EltTy.packing .bf16)
  hrank2 : 0 < grid2.rank
  k2_t1_ok : k2_t1_loop.OK
  k2_mult1_dvd : ∀ k2_t1 : Fin k2_t1_loop.trips, 1024 ∣ (k2_mult1 k2_t1).toNat
  k2_off1_inb : ∀ k2_t1 : Fin k2_t1_loop.trips, ∀ a, (k2_off1 k2_t1) a + S1024x128.size a ≤ S25600x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S800768x128.size a
  hwx2_0 : ∀ i : grid2.Coords, EltTy.bits .bf16 = 32 ∨ (Rect.block (s := S800768x128) S2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x800768.size a
  hwx2_1 : ∀ i : grid2.Coords, EltTy.bits .i32 = 32 ∨ (Rect.block (s := S1x800768) S1x2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25600x128.size a ≤ S51200x128.size a
  hwx2_2 : ∀ i : grid2.Coords, EltTy.bits .f32 = 32 ∨ (Rect.block (s := S51200x128) S25600x128.size (cc2_transform_2 i) (hinb2_2 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x2048_S1024x128_S2048x128_0_0_1_1_n_n : DotDims S1024x2048 S1024x128 S2048x128 where
  lhsContracting := [0]
  rhsContracting := [0]
  lhsNonContracting := [1]
  rhsNonContracting := [1]
  lhsBatch := []
  rhsBatch := []
  wf := dot_S1024x2048_S1024x128_S2048x128_0_0_1_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S51200x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S25600x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S50000x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  What the layer computes, as one function of the four argument arrays, index by index over the extended reals.

  Node features `x : [50000, 128]`, an edge list `ei : [2, 800000]` of 32-bit words (row 0 the source of each edge, row 1
  its target), weights `W : [128, 128]` and a bias `b : [128]`. Every node's features are projected, `h = x Wᵀ`; edge `e`
  carries the projected row of its source; each target node sums the messages of the edges that name it; the bias is added.
  A target word that is no node's number receives nothing (no row of the result is compared equal to it), and so does an
  edge whose source word is no node's number (its message is zero).
-/
import Idealize.ShloMosaic.PureOps.Ideal
import Idealize.ShloMosaic.Lib.ValueIdx

noncomputable section

open scoped BigOperators

namespace Cert.Spec

open Idealize.ShloMosaic Idealize.ShloMosaic.ValueIdx

/-- The weight a one-hot compare gives a pair of 32-bit words: one when they are the same word, zero otherwise. -/
def hot (a b : BitVec 32) : EReal := if a = b then 1 else 0

theorem hot_self (a : BitVec 32) : hot a a = 1 := if_pos rfl
theorem hot_of_ne {a b : BitVec 32} (h : a ≠ b) : hot a b = 0 := if_neg h

/-- One entry of the projected features: `(x Wᵀ)[n, d] = ∑ₖ x[n, k] · W[d, k]`. -/
def lin (x : (⟨2, ![50000, 128]⟩ : Shape).Idx → EReal) (W : (⟨2, ![128, 128]⟩ : Shape).Idx → EReal)
    (n : Fin 50000) (d : Fin 128) : EReal :=
  ∑ k : Fin 128, x (ix2 n k) * W (ix2 d k)

/-- The message edge `e` carries at feature `d`: the projected row of its source node; zero when the source word is
    not a node's number. -/
def msg (x : (⟨2, ![50000, 128]⟩ : Shape).Idx → EReal) (ei : (⟨2, ![2, 800000]⟩ : Shape).Idx → BitVec 32)
    (W : (⟨2, ![128, 128]⟩ : Shape).Idx → EReal) (e : Fin 800000) (d : Fin 128) : EReal :=
  if h : (ei (ix2 (0 : Fin 2) e)).toNat < 50000 then lin x W ⟨(ei (ix2 (0 : Fin 2) e)).toNat, h⟩ d else 0

/-- Node `n`'s result at feature `d`: the messages of the edges whose target word is `n`, summed, plus the bias. -/
def agg (x : (⟨2, ![50000, 128]⟩ : Shape).Idx → EReal) (ei : (⟨2, ![2, 800000]⟩ : Shape).Idx → BitVec 32)
    (W : (⟨2, ![128, 128]⟩ : Shape).Idx → EReal) (b : (⟨1, ![128]⟩ : Shape).Idx → EReal)
    (n : Fin 50000) (d : Fin 128) : EReal :=
  (∑ e : Fin 800000, hot (BitVec.ofNat 32 n.val) (ei (ix2 (1 : Fin 2) e)) * msg x ei W e d) + b (ix1 d)

/-- The whole result array. -/
def G (x : (⟨2, ![50000, 128]⟩ : Shape).Idx → EReal) (ei : (⟨2, ![2, 800000]⟩ : Shape).Idx → BitVec 32)
    (W : (⟨2, ![128, 128]⟩ : Shape).Idx → EReal) (b : (⟨1, ![128]⟩ : Shape).Idx → EReal) :
    (⟨2, ![50000, 128]⟩ : Shape).Idx → EReal :=
  fun i => agg x ei W b (i 0) (i 1)

theorem G_ix2 (x ei W b) (n : Fin 50000) (d : Fin 128) : G x ei W b (ix2 n d) = agg x ei W b n d := rfl

end Cert.Spec

end
-- ==== Proof.Arrays.lean ====
/-
  The arrays each of the three pipelined calls reads and writes, named at their literal shapes, as functions of the
  TensorCore's buffer contents `V` when the call is entered.
-/
import proofs.«412696_j13280038879717_2_alg».proof.Proof.Gen.KernelIdeal.Frame
import proofs.«412696_j13280038879717_2_alg».proof.Proof.Spec
import Idealize.ShloMosaic.Lib.ValueIdx
import Idealize.ShloMosaic.Lib.Pipeline.Value

noncomputable section

namespace Cert.KernelIdeal.KVal

open Idealize.ShloMosaic Idealize.ShloMosaic.ValueIdx Idealize.ShloMosaic.TcCoe Idealize.SL.Sem
open Cert.KernelIdeal Cert.KernelIdeal.Gen

/-- The TensorCore's buffer contents when a call is entered. -/
abbrev VT := (c : Dev nD) → (b : Ref sig .tc) → Buf (Elt Ideal) ((c : Thread nD τ).loc b)

/-- The projection: the padded features and the transposed weights it reads, the projected rows it leaves. -/
abbrev xpadA (V : VT) (c : Dev nD) : S51200x128.Idx → EReal := V c main_v2
abbrev wtA (V : VT) (c : Dev nD) : S128x128.Idx → EReal := V c main_v1
abbrev hOut (V : VT) (c : Dev nD) : S51200x128.Idx → EReal := (dat0 V c).arrAt 2 cfg0.N
/-- The gather: the projected rows and the padded source words it reads, the messages it leaves. -/
abbrev hA (V : VT) (c : Dev nD) : S51200x128.Idx → EReal := V c main_v3
abbrev srcA (V : VT) (c : Dev nD) : S1x800768.Idx → BitVec 32 := V c main_v10
abbrev msgOut (V : VT) (c : Dev nD) : S800768x128.Idx → EReal := (dat1 V c).arrAt 2 cfg1.N
/-- The scatter-add: the messages and the padded target words it reads, the sums it leaves. -/
abbrev msgA (V : VT) (c : Dev nD) : S800768x128.Idx → EReal := V c main_v12
abbrev dstA (V : VT) (c : Dev nD) : S1x800768.Idx → BitVec 32 := V c main_v11
abbrev accOut (V : VT) (c : Dev nD) : S51200x128.Idx → EReal := (dat2 V c).arrAt 2 cfg2.N

end Cert.KernelIdeal.KVal

end
-- ==== Proof.HostGlue.lean ====
/-
  The host side of the kernel's program at the ideal instance: what each call's arrays hold, and what the result buffer
  holds, as functions of the launch memory.

  Before the projection call the features are padded with 1200 zero rows and the weights are transposed; before the gather
  and the scatter-add the two rows of the edge list are cut out, padded with 768 copies of the word 50000 and laid out as
  one row; after the scatter-add the first 50000 rows are kept and the bias is added to each. Between those stretches the
  calls write only their own output arrays, so every other buffer is carried along unchanged.
-/
import proofs.«412696_j13280038879717_2_alg».proof.Proof.Arrays
import Idealize.ShloMosaic.Lib.StableHlo.Run
import Idealize.ShloMosaic.Lib.KernelVsHost

set_option maxRecDepth 16384

noncomputable section

open scoped BigOperators

namespace Cert.KernelIdeal.KVal

open Idealize.ShloMosaic Idealize.ShloMosaic.ValueIdx Idealize.ShloMosaic.TcCoe Idealize.SL.Sem
open Idealize.ShloMosaic.StableHlo
open Cert.KernelIdeal Cert.KernelIdeal.Gen Cert.Spec

variable (m : (ℓ : Loc nD τ sig) → Buf (Elt Ideal) ℓ) (ρ : Dev nD → PrngReg)

/-- The four argument arrays as launched, at their literal shapes. -/
abbrev xArg (c : Dev nD) : S50000x128.Idx → EReal := m ((c : Thread nD τ).loc main_arg0)
abbrev eiArg (c : Dev nD) : S2x800000.Idx → BitVec 32 := m ((c : Thread nD τ).loc main_arg1)
abbrev wArg (c : Dev nD) : S128x128.Idx → EReal := m ((c : Thread nD τ).loc main_arg2)
abbrev bArg (c : Dev nD) : S128.Idx → EReal := m ((c : Thread nD τ).loc main_arg3)

/-- A buffer that no operation of a host stretch writes is carried through the stretch. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Before the projection -/

/-- The padded features as an operation of the launched ones. -/
theorem xpad_term (c : Dev nD) :
    xpadA (V2 m ρ) c = pad S51200x128 ![0, 0] ![1200, 0] ![0, 0] (xArg m c)
      (sitofp (F := Ideal) .f32 (constantI S_ 32 0#32)) pads_S50000x128_S51200x128_012000_000 h_S_ := by
  show StableHlo.after hostOps0_1 (StableHlo.after hostOps0 (W0 m ρ c)) (Proc.devRef .tc main_v2) = _
  after_results
  rfl

/-- A padded row below 50000 is the launched row; the rows from 50000 on are zero. -/
theorem xpad_apply (c : Dev nD) (n : Fin 51200) (k : Fin 128) :
    xpadA (V2 m ρ) c (ix2 n k) = if h : n.val < 50000 then xArg m c (ix2 ⟨n.val, h⟩ k) else 0 := by
  rw [xpad_term]
  by_cases h : n.val < 50000
  · rw [dif_pos h]
    exact pad_apply_of_inside _ _ _ _ _ pads_S50000x128_S51200x128_012000_000 h_S_ (ix2 n k) (ix2 ⟨n.val, h⟩ k)
      (fun a => match a with
        | ⟨0, _⟩ => by show n.val = 0 + n.val * (0 + 1); omega
        | ⟨1, _⟩ => by show k.val = 0 + k.val * (0 + 1); omega)
  · rw [dif_neg h]
    refine (pad_apply_of_not_inside _ _ _ _ _ pads_S50000x128_S51200x128_012000_000 h_S_ (ix2 n k) (0 : Fin 2)
      (fun hin => h ?_)).trans ?_
    · have h3 := hin.2.2
      have : (n.val - 0) / (0 + 1) < 50000 := h3
      omega
    · exact Idealize.ShloMosaic.sitofp_zero (φ := .f32)

/-- The weights the projection reads are the launched ones transposed. -/
theorem wt_term (c : Dev nD) :
    wtA (V2 m ρ) c = truncf (F := Ideal) .bf16 (transpose S128x128 [1, 0] (wArg m c) transposes_S128x128_S128x128_1_0) bitsLt_bf16_f32 := by
  show StableHlo.after hostOps0_1 (StableHlo.after hostOps0 (W0 m ρ c)) (Proc.devRef .tc main_v1) = _
  after_results

theorem wt_apply (c : Dev nD) (k d : Fin 128) : wtA (V2 m ρ) c (ix2 k d) = wArg m c (ix2 d k) := by
  rw [wt_term]
  show transpose S128x128 [1, 0] (wArg m c) transposes_S128x128_S128x128_1_0 (ix2 k d) = _
  exact transpose_apply [1, 0] (wArg m c) transposes_S128x128_S128x128_1_0 (ix2 k d) (ix2 d k) (fun b => match b with
    | ⟨0, _⟩ => rfl
    | ⟨1, _⟩ => rfl)

/-! ## Between the projection and the gather -/

/-- The gather reads the rows the projection left. -/
theorem h_carried (c : Dev nD) : hA (V8 m ρ) c = hOut (V2 m ρ) c :=
  calc W8 m ρ c (Proc.devRef .tc main_v3)
    _ = W7 m ρ c (Proc.devRef .tc main_v3) := by host_keeps hostOps1_4
    _ = W6 m ρ c (Proc.devRef .tc main_v3) := by host_keeps hostOps1_3
    _ = W5 m ρ c (Proc.devRef .tc main_v3) := by host_keeps hostOps1_2
    _ = W4 m ρ c (Proc.devRef .tc main_v3) := by host_keeps hostOps1_1
    _ = W3 m ρ c (Proc.devRef .tc main_v3) := by host_keeps hostOps1
    _ = (dat0 (V2 m ρ) c).arrAt 2 cfg0.N := W3_arr m ρ c 2

/-- The edge list is as launched when the projection has run. -/
theorem ei_at_W3 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by host_keeps hostOps0_1
    _ = W0 m ρ c (Proc.devRef .tc main_arg1) := by host_keeps hostOps0
    _ = m ((c : Thread nD τ).loc main_arg1) := rfl

/-- Row `row` of an edge list, padded with 768 copies of the word 50000 and laid out as one row of 800768 words: the
    operations the host applies. -/
def padRowTerm (ei : S2x800000.Idx → BitVec 32) (row : Fin 2) (hs : S2x800000.Slices ![row.val, 0] S1x800000) :
    S1x800768.Idx → BitVec 32 :=
  shapeCast S1x800768 (pad S800768 ![0] ![768] ![0]
    (shapeCast S800000 (extractStridedSlice S1x800000 ![row.val, 0] ei hs) shapeCasts_S1x800000_S800000)
    (constantI S_ 32 50000#32) pads_S800000_S800768_07680 h_S_) shapeCasts_S800768_S1x800768

/-- Read at a position: the launched word below 800000, the word 50000 from there on. -/
theorem padRowTerm_apply (ei : S2x800000.Idx → BitVec 32) (row : Fin 2) (hs : S2x800000.Slices ![row.val, 0] S1x800000)
    (e : Fin 800768) :
    padRowTerm ei row hs (ix2 (0 : Fin 1) e) = if h : e.val < 800000 then ei (ix2 row ⟨e.val, h⟩) else 50000#32 := by
  unfold padRowTerm
  refine (shapeCast_apply _ shapeCasts_S800768_S1x800768 (ix2 (0 : Fin 1) e) (ix1 e)
    (by rw [Shape.rowMajor_val_two, Shape.rowMajor_val_one]; show e.val = 0 * 800768 + e.val; omega)).trans ?_
  by_cases h : e.val < 800000
  · rw [dif_pos h]
    refine (pad_apply_of_inside _ _ _ _ _ pads_S800000_S800768_07680 h_S_ (ix1 e) (ix1 (⟨e.val, h⟩ : Fin 800000))
      (fun a => match a with | ⟨0, _⟩ => by show e.val = 0 + e.val * (0 + 1); omega)).trans ?_
    refine (shapeCast_apply _ shapeCasts_S1x800000_S800000 (ix1 (⟨e.val, h⟩ : Fin 800000)) (ix2 (0 : Fin 1) (⟨e.val, h⟩ : Fin 800000))
      (by rw [Shape.rowMajor_val_two, Shape.rowMajor_val_one]; show 0 * 800000 + e.val = e.val; omega)).trans ?_
    exact extractStridedSlice_apply ![row.val, 0] ei hs (ix2 (0 : Fin 1) (⟨e.val, h⟩ : Fin 800000)) (ix2 row ⟨e.val, h⟩)
      (fun a => match a with
        | ⟨0, _⟩ => by show row.val = row.val + 0; omega
        | ⟨1, _⟩ => by show e.val = 0 + e.val; omega)
  · rw [dif_neg h]
    refine (pad_apply_of_not_inside _ _ _ _ _ pads_S800000_S800768_07680 h_S_ (ix1 e) (0 : Fin 1)
      (fun hin => h ?_)).trans rfl
    have h3 : (e.val - 0) / (0 + 1) < 800000 := hin.2.2
    omega

/-- The source words the gather reads: the launched row 0 below 800000, the word 50000 from there on. -/
theorem src_apply (c : Dev nD) (e : Fin 800768) :
    srcA (V8 m ρ) c (ix2 (0 : Fin 1) e) = if h : e.val < 800000 then eiArg m c (ix2 (0 : Fin 2) ⟨e.val, h⟩) else 50000#32 := by
  refine Eq.trans ?_ (padRowTerm_apply (eiArg m c) 0 slices_S2x800000_S1x800000_0_0 e)
  show StableHlo.after hostOps1_4 (StableHlo.after hostOps1_3 (StableHlo.after hostOps1_2 (StableHlo.after hostOps1_1
    (StableHlo.after hostOps1 (W3 m ρ c))))) (Proc.devRef .tc main_v10) (ix2 (0 : Fin 1) e) = _
  after_results
  rw [ei_at_W3]
  rfl

/-- The target words as the gather finds them (it does not touch them). -/
theorem dst_apply8 (c : Dev nD) (e : Fin 800768) :
    dstA (V8 m ρ) c (ix2 (0 : Fin 1) e) = if h : e.val < 800000 then eiArg m c (ix2 (1 : Fin 2) ⟨e.val, h⟩) else 50000#32 := by
  refine Eq.trans ?_ (padRowTerm_apply (eiArg m c) 1 slices_S2x800000_S1x800000_1_0 e)
  show StableHlo.after hostOps1_4 (StableHlo.after hostOps1_3 (StableHlo.after hostOps1_2 (StableHlo.after hostOps1_1
    (StableHlo.after hostOps1 (W3 m ρ c))))) (Proc.devRef .tc main_v11) (ix2 (0 : Fin 1) e) = _
  after_results
  rw [ei_at_W3]
  rfl

/-! ## Between the gather and the scatter-add -/

/-- The scatter-add reads the messages the gather left, -/
theorem msg_carried (c : Dev nD) : msgA (V9 m ρ) c = msgOut (V8 m ρ) c := W9_arr m ρ c 2

/-- and the target words the host prepared. -/
theorem dst_apply (c : Dev nD) (e : Fin 800768) :
    dstA (V9 m ρ) c (ix2 (0 : Fin 1) e) = if h : e.val < 800000 then eiArg m c (ix2 (1 : Fin 2) ⟨e.val, h⟩) else 50000#32 :=
  (congrFun (W9_of_ne m ρ c main_v11 (by decide)) (ix2 (0 : Fin 1) e)).trans (dst_apply8 m ρ c e)

/-! ## After the scatter-add -/

/-- The bias is as launched when the scatter-add has run. -/
theorem b_at_W10 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := by host_keeps hostOps1_4
    _ = W6 m ρ c (Proc.devRef .tc main_arg3) := by host_keeps hostOps1_3
    _ = W5 m ρ c (Proc.devRef .tc main_arg3) := by host_keeps hostOps1_2
    _ = W4 m ρ c (Proc.devRef .tc main_arg3) := by host_keeps hostOps1_1
    _ = W3 m ρ c (Proc.devRef .tc main_arg3) := by host_keeps hostOps1
    _ = W2 m ρ c (Proc.devRef .tc main_arg3) := W3_of_ne m ρ c main_arg3 (by decide)
    _ = W1 m ρ c (Proc.devRef .tc main_arg3) := by host_keeps hostOps0_1
    _ = W0 m ρ c (Proc.devRef .tc main_arg3) := by host_keeps hostOps0
    _ = m ((c : Thread nD τ).loc main_arg3) := rfl

/-- The result buffer at the last boundary, at its literal shape. -/
abbrev resultA (c : Dev nD) : S50000x128.Idx → EReal := W11 m ρ c (Proc.devRef .tc main_v17)

/-- The host's last three operations on the scatter-add's output `a` and the bias `b`, read at an entry: row `n` of `a`
    plus the bias at `d`. -/
theorem tail_apply (a : FVec Ideal S51200x128 .f32) (b : FVec Ideal S128 .f32) (n : Fin 50000) (d : Fin 128) :
    (addf (F := Ideal) (extractStridedSlice S50000x128 ![0, 0] a slices_S51200x128_S50000x128_0_0)
      (broadcastInDim S50000x128 ![0, 1] bcast_S1x128_S50000x128_0_1 (broadcastInDim S1x128 ![1] bcast_S128_S1x128_1 b)) (ix2 n d) : EReal)
      = (a (ix2 (⟨n.val, by omega⟩ : Fin 51200) d) : EReal) + (b (ix1 d) : EReal) := by
  show (extractStridedSlice S50000x128 ![0, 0] a slices_S51200x128_S50000x128_0_0 (ix2 n d) : EReal)
    + (broadcastInDim S50000x128 ![0, 1] bcast_S1x128_S50000x128_0_1 (broadcastInDim S1x128 ![1] bcast_S128_S1x128_1 b) (ix2 n d) : EReal) = _
  congr 1
  · exact extractStridedSlice_apply ![0, 0] a slices_S51200x128_S50000x128_0_0 (ix2 n d)
      (ix2 (⟨n.val, by omega⟩ : Fin 51200) d) (fun x => match x with
        | ⟨0, _⟩ => by show n.val = 0 + n.val; omega
        | ⟨1, _⟩ => by show d.val = 0 + d.val; omega)
  · refine (broadcastInDim_apply _ bcast_S1x128_S50000x128_0_1 _ (ix2 n d) (ix2 (0 : Fin 1) d) (fun x => match x with
        | ⟨0, _⟩ => by show 0 = if (1 : Nat) = 1 then 0 else n.val; rw [if_pos rfl]
        | ⟨1, _⟩ => by show d.val = if (128 : Nat) = 1 then 0 else d.val; rw [if_neg (by decide)])).trans ?_
    exact broadcastInDim_apply _ bcast_S128_S1x128_1 b (ix2 (0 : Fin 1) d) (ix1 d) (fun x => match x with
        | ⟨0, _⟩ => by show d.val = if (128 : Nat) = 1 then 0 else d.val; rw [if_neg (by decide)])

set_option maxHeartbeats 400000 in
/-- Entry `(n, d)` of the result is the scatter-add's entry at row `n` plus the launched bias at `d`. -/
theorem result_apply (c : Dev nD) (n : Fin 50000) (d : Fin 128) :
    resultA m ρ c (ix2 n d) = accOut (V9 m ρ) c (ix2 (⟨n.val, by omega⟩ : Fin 51200) d) + bArg m c (ix1 d) := by
  refine Eq.trans ?_ (tail_apply (accOut (V9 m ρ) c) (bArg m c) n d)
  show StableHlo.after hostOps3 (W10 m ρ c) (Proc.devRef .tc main_v17) (ix2 n d) = _
  after_results
  rw [b_at_W10, W10_arr m ρ c 2]

end Cert.KernelIdeal.KVal

end
-- ==== Proof.Linear.lean ====
/-
  The projection call. Each grid point multiplies a block of 1024 padded feature rows by the whole transposed weight
  matrix; the blocks tile the 51200 rows, so the array it leaves is the matrix product, entry by entry.
-/
import proofs.«412696_j13280038879717_2_alg».proof.Proof.Arrays
import Idealize.ShloMosaic.PureOps.Ideal.Laws

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen Cert.Spec

namespace Projection

/-! ## One block's product, entry by entry -/

/-- The left operand's index at output index `i` and contraction index `q` keeps the output's row (axis 0 is the
    left operand's free axis). -/
theorem lhs_proj_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- Its column is the contraction index (axis 1 is the left operand's one contracted axis). -/
theorem lhs_proj_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row is the contraction index (axis 0 is its one contracted axis). -/
theorem rhs_proj_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- Its column is the output's column (axis 1 is the right operand's free axis). -/
theorem rhs_proj_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- What one grid point stores, read at row `p` and column `q` of its block: the casts of a shape to itself and the
    changes of float format are the identity on the extended reals, and the product into the zero accumulator is the sum
    over the contracted axis of the feature block's `(p, k)` times the weight block's `(k, q)`. -/
theorem block_product (v0 : S1024x128.Idx → EReal) (v3 : S128x128.Idx → EReal) (p : Fin 1024) (q : Fin 128) :
    k0_pay1 (F := Ideal) v0 v3 (ix2 p q) = ∑ k : Fin 128, v0 (ix2 p k) * v3 (ix2 k q) := by
  unfold k0_pay1
  simp only [shapeCast_self, matmul]
  rw [truncf_apply, Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [truncf_apply, el, er]

/-! ## What a grid point writes back -/

/-- The block offsets `(0, 0)`, as the zero function of the axis. -/
theorem zero_offsets : (![0, 0] : Fin 2 → Nat) = fun _ => 0 := funext fun a => by fin_cases a <;> rfl

/-- The product, entry by entry, as one function of the output's index: row `i 0` of the padded features against
    column `i 1` of the transposed weights. -/
abbrev prodA (V : VT) (c : Dev nD) : S51200x128.Idx → EReal :=
  fun i => ∑ k : Fin 128, xpadA V c (ix2 (i 0) k) * wtA V c (ix2 k (i 1))

/-- The three index maps over the 50 grid points: at point `t` the feature window and the output window sit at row
    block `t`, column block 0; the weight window stays at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point `t`, at `y`, is the padded features at row `1024 t + y 0`, column `y 1`. -/
theorem feature_block (V : VT) (c : Dev nD) (t : Fin cfg0.N) (y : S1024x128.Idx) (i : S51200x128.Idx)
    (h0 : (i 0).val = 1024 * t.val + (y 0).val) (h1 : (i 1).val = (y 1).val) :
    (iblk0 V c 0 t : S1024x128.Idx → EReal) y = xpadA V c i := by
  obtain ⟨e0, e1, -, -, -, -⟩ := block_indices t
  unfold iblk0
  rw [View.read_apply]
  show V c main_v2 (((cfg0.win 0).blk t).view.emb y) = V c main_v2 i
  congr 1
  funext a
  apply Fin.ext
  match a with
  | ⟨0, _⟩ => show win0_0.index t (0 : Fin 2) * 1024 + 1 * (y 0).val = (i 0).val; omega
  | ⟨1, _⟩ => show win0_0.index t (1 : Fin 2) * 128 + 1 * (y 1).val = (i 1).val; omega

/-- The weight block of every point is the whole transposed weight matrix. -/
theorem weight_block (V : VT) (c : Dev nD) (t : Fin cfg0.N) (y : S128x128.Idx) (i : S128x128.Idx)
    (h0 : (i 0).val = (y 0).val) (h1 : (i 1).val = (y 1).val) :
    (iblk0 V c 1 t : S128x128.Idx → EReal) y = wtA V c i := by
  obtain ⟨-, -, e2, e3, -, -⟩ := block_indices t
  unfold iblk0
  rw [View.read_apply]
  show V c main_v1 (((cfg0.win 1).blk t).view.emb y) = V c main_v1 i
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point `t` writes back is block `t` of the product: its one store holds the block product of the feature
    block (rows `1024 t …`) and the weight block (the whole matrix), and the output block sits at the same rows. -/
theorem written_block (V : VT) (c : Dev nD) (t : Fin cfg0.N) :
    (dat0 V c).flushed 2 t = ((cfg0.win 2).blk t).view.read (Elt Ideal) (prodA V c) := by
  show (cfg0.win 2).cut (grid0.coords t) ((dat0 V c).after 2 t) = _
  rw [after0_2]
  unfold out0_2
  rw [View.canon_unit_zero zero_offsets]
  simp only [View.ld_unit_zero (S := S1024x128) zero_offsets, View.ld_unit_zero (S := S128x128) zero_offsets]
  obtain ⟨-, -, -, -, e4, e5⟩ := block_indices t
  funext j
  obtain ⟨p, q, rfl⟩ : ∃ (p : Fin 1024) (q : Fin 128), j = ix2 p q := ⟨j 0, j 1, eq_ix2 j⟩
  show k0_pay1 (F := Ideal) (iblk0 V c 0 t) (iblk0 V c 1 t) (ix2 p q) = prodA V c (((cfg0.win 2).blk t).view.emb (ix2 p q))
  rw [block_product]
  refine Finset.sum_congr rfl fun k _ => ?_
  congr 1
  · refine feature_block V c t (ix2 p k) _ ?_ rfl
    show win0_2.index t (0 : Fin 2) * 1024 + 1 * p.val = 1024 * t.val + p.val
    omega
  · refine weight_block V c t (ix2 k q) _ rfl ?_
    show win0_2.index t (1 : Fin 2) * 128 + 1 * q.val = q.val
    omega

/-! ## The blocks tile the rows -/

/-- An index of the output array is in point `t`'s block iff, on each axis, it is in the block's range. -/
theorem in_block (t : Fin cfg0.N) (i : S51200x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v3).slice (win0_2.rect t)).set ↔ _
  rw [View.set_slice_whole, Rect.mem_set_unit]
  exact Iff.rfl

/-- Row `r` is in the block of point `r / 1024`, and every point writes its block back. -/
theorem rows_covered (i : S51200x128.Idx) :
    ∃ t : Fin cfg0.N, (cfg0.win 2).flush t = true ∧ i ∈ ((cfg0.win 2).blk t).view.set := by
  have hi0 : (i 0).val < 51200 := (i 0).isLt
  have hi1 : (i 1).val < 128 := (i 1).isLt
  have hN : grid0.N = 50 := N_0
  have ht : (i 0).val / 1024 < cfg0.N := by show (i 0).val / 1024 < grid0.N; omega
  obtain ⟨-, -, -, -, e4, e5⟩ := block_indices ⟨(i 0).val / 1024, ht⟩
  refine ⟨⟨(i 0).val / 1024, ht⟩, flush0_2 _, ?_⟩
  rw [in_block]
  intro a
  match a with
  | ⟨0, _⟩ =>
    show win0_2.index ⟨(i 0).val / 1024, ht⟩ (0 : Fin 2) * 1024 ≤ (i 0).val ∧ (i 0).val < win0_2.index ⟨(i 0).val / 1024, ht⟩ (0 : Fin 2) * 1024 + 1024
    rw [e4]
    show (i 0).val / 1024 * 1024 ≤ (i 0).val ∧ (i 0).val < (i 0).val / 1024 * 1024 + 1024
    omega
  | ⟨1, _⟩ =>
    show win0_2.index ⟨(i 0).val / 1024, ht⟩ (1 : Fin 2) * 128 ≤ (i 1).val ∧ (i 1).val < win0_2.index ⟨(i 0).val / 1024, ht⟩ (1 : Fin 2) * 128 + 128
    rw [e5]
    omega

/-! ## The array the call leaves -/

/-- The output array after the call is the product. -/
theorem region0_array (V : VT) (c : Dev nD) : hOut V c = prodA V c :=
  (dat0 V c).arrAt_eq_of_cover 2 (prodA V c) (fun t _ => written_block V c t) rows_covered

end Projection

/-- After the projection call, entry `(n, d)` of its output is the sum over `k` of the padded features' `(n, k)` times the
    transposed weights' `(k, d)`. -/
theorem region0_value (V : VT) (c : Dev nD) (n : Fin 51200) (d : Fin 128) :
    hOut V c (ix2 n d) = ∑ k : Fin 128, xpadA V c (ix2 n k) * wtA V c (ix2 k d) :=
  congrFun (Projection.region0_array V c) (ix2 n d)

end Cert.KernelIdeal.KVal

end
-- ==== Proof.Gather.lean ====
/-
  The gather call. Each grid point takes a block of 2048 source words and, chunk of 1024 rows by chunk, adds the product
  of the one-hot compare (row number against source word) with the chunk of projected rows; the fifty chunks cover all
  51200 rows, so an edge's message is the one-hot-weighted sum of the projected rows.

  First one grid point on any staging buffers: the block it stores is the carried value of the fifty trips; one trip
  adds, at (j, d), the sum over the chunk's rows r of the weight of (row 1024 k + r, source word j) times the chunk's
  (r, d); by induction over the trips the carried value before trip k is the sum over the rows below 1024 k. Then from
  the blocks to the array: point t reads the whole of the projected rows and the source words from 2048 t on, and
  writes the messages' rows from 2048 t on; every point writes back, and row e lies in the block of point e / 2048.
-/
import proofs.«412696_j13280038879717_2_alg».proof.Proof.Arrays
import Idealize.ShloMosaic.PureOps.Ideal.Laws
import Idealize.ShloMosaic.Lib.Tactic

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen Cert.Spec

namespace Gather

theorem hz2 : (![0, 0] : Fin 2 → Nat) = fun _ => 0 := funext fun a => by fin_cases a <;> rfl

/-- The loop runs fifty trips. -/
theorem trips1 : k1_t1_loop.trips = 50 := by decide

section AnyInstance
variable {F : FTy → Type} [FloatOps F]

/-- One trip: the payload of the chunk of rows the trip loads, added into the carried block. -/
theorem tripR_eq (𝒱 : Variants) (c : Dev nD) (bd : Option 𝒱.V) (i : grid1.Coords) (arg1 : Memref sig .tc .vmem S51200x128 .bf16) (harg1 : arg1.IsWhole)
    (arg2 : Memref sig .tc .vmem S1x2048 .i32) (harg2 : arg2.IsWhole) (arg3 : Memref sig .tc .vmem S2048x128 .bf16) (harg3 : arg3.IsWhole)
    (v0 : Vec F S1x2048 .i32) (X : BufTy.Contents (Elt F) arg1.view.ty) (k : Fin k1_t1_loop.trips) (acc : FVec F S2048x128 .f32) :
    tripR_k1_t1 (F := F) 𝒱 c bd i arg1 harg1 arg2 harg2 arg3 harg3 v0 X k acc
      = k1_pay2 v0 k acc (View.readAt (Elt F) arg1.view (Rect.unit (s := S51200x128) (k1_off1 k) S1024x128.size (k1_off1_inb k)).toLoadRect X) := by
  unfold tripR_k1_t1 trip_k1_t1
  rfl

/-- What one grid point leaves in the output block: the fifty trips' carried value, stored whole. -/
theorem out1_piece (c : Dev nD) (i : grid1.Coords) (arg1 : Memref sig .tc .vmem S51200x128 .bf16) (harg1 : arg1.IsWhole) (arg2 : Memref sig .tc .vmem S1x2048 .i32) (harg2 : arg2.IsWhole) (arg3 : Memref sig .tc .vmem S2048x128 .bf16) (harg3 : arg3.IsWhole)
    (x0 : Vec F S51200x128 .bf16) (x1 : Vec F S1x2048 .i32) :
    out1_A_2 (F := F) c i arg1 harg1 arg2 harg2 arg3 harg3 x0 x1
      = k1_pay3 (st_k1_t1 (F := F) Variants.none c none i arg1 harg1 arg2 harg2 arg3 harg3 x1 (harg1.unread x0) k1_pay1 k1_t1_loop.trips) := by
  unfold out1_A_2
  rw [View.read_writes_eq_canon _ _ _ (cover1_A_2 c i arg1 harg1 arg2 harg2 arg3 harg3 x0 x1)]
  unfold kernelRun1_A
  dsimp only
  sl_unfold_words
  rw [View.canon_unit_zero hz2]
  simp only [View.readAt_eq_ld, harg2.read_unread, View.ld_unit_zero (S := S1x2048) hz2]

end AnyInstance

/-! ## One trip's payload at an index, over the extended reals -/

/-- The weight the compare, widening and conversion give a pair of words. -/
theorem onehot_word (a b : BitVec 32) :
    (FloatOps.sitofp (F := Ideal) .f32 ((IntOp.cmpi .eq a b).setWidth 32) : EReal) = hot a b := by
  show ((((IntOp.cmpi .eq a b).setWidth 32).toInt : ℝ) : EReal) = hot a b
  by_cases h : a = b
  · subst h
    rw [hot_self, show IntOp.cmpi .eq a a = 1#1 from by simp [IntOp.cmpi]]
    simp
  · have hb : (a == b) = false := by simp [h]
    rw [hot_of_ne h, show IntOp.cmpi .eq a b = 0#1 from by unfold IntOp.cmpi; rw [hb]; rfl]
    simp

/-- The one-hot operand at an index: the weight of the two compared words there. -/
theorem onehot_apply {s : Shape} (A B : IVec s 32) (h1 : 1 < 32) (h2 : FTy.bf16.bits < FTy.f32.bits) (i : s.Idx) :
    (truncf (F := Ideal) .bf16 (sitofp .f32 (extui 32 (cmpi .eq A B) h1)) h2 : s.Idx → EReal) i = hot (A i) (B i) :=
  onehot_word (A i) (B i)

/-- The left operand (rows × edges) is read at (contracted row, the result's edge) … -/
theorem lhs_gdot_0 (i : S2048x128.Idx) (q : dot_S1024x2048_S1024x128_S2048x128_0_0_1_1_n_n.contr.Idx) :
    (dot_S1024x2048_S1024x128_S2048x128_0_0_1_1_n_n.lhsIdx i q 0).val = (q ⟨0, by decide⟩).val :=
  dot_S1024x2048_S1024x128_S2048x128_0_0_1_1_n_n.lhsIdx_val_of_single rfl i q
theorem lhs_gdot_1 (i : S2048x128.Idx) (q : dot_S1024x2048_S1024x128_S2048x128_0_0_1_1_n_n.contr.Idx) :
    (dot_S1024x2048_S1024x128_S2048x128_0_0_1_1_n_n.lhsIdx i q 1).val = (i 0).val := by
  unfold DotDims.lhsIdx
  rw [dif_neg (show ¬(1 : Fin S1024x2048.rank) ∈ dot_S1024x2048_S1024x128_S2048x128_0_0_1_1_n_n.lhsBatch by decide), dif_pos (show (1 : Fin S1024x2048.rank) ∈ dot_S1024x2048_S1024x128_S2048x128_0_0_1_1_n_n.lhsNonContracting by decide)]
  rfl
/-- … and the right operand (rows × features) at (contracted row, the result's feature). -/
theorem rhs_gdot_0 (i : S2048x128.Idx) (q : dot_S1024x2048_S1024x128_S2048x128_0_0_1_1_n_n.contr.Idx) :
    (dot_S1024x2048_S1024x128_S2048x128_0_0_1_1_n_n.rhsIdx i q 0).val = (q ⟨0, by decide⟩).val :=
  dot_S1024x2048_S1024x128_S2048x128_0_0_1_1_n_n.rhsIdx_val_of_single rfl i q
theorem rhs_gdot_1 (i : S2048x128.Idx) (q : dot_S1024x2048_S1024x128_S2048x128_0_0_1_1_n_n.contr.Idx) :
    (dot_S1024x2048_S1024x128_S2048x128_0_0_1_1_n_n.rhsIdx i q 1).val = (i 1).val := by
  unfold DotDims.rhsIdx
  rw [dif_neg (show ¬(1 : Fin S1024x128.rank) ∈ dot_S1024x2048_S1024x128_S2048x128_0_0_1_1_n_n.rhsBatch by decide), dif_pos (show (1 : Fin S1024x128.rank) ∈ dot_S1024x2048_S1024x128_S2048x128_0_0_1_1_n_n.rhsNonContracting by decide)]
  rfl

/-- Row `r` of chunk `k` is row `1024 k + r` of the array, as a word (no wrap: the sum is a 32-bit word's). -/
theorem word_row (k r : ℕ) :
    IntOp.addi (Scalar.muli (Scf.iv 0#32 1#32 k) 1024#32) (BitVec.ofNat 32 r) = BitVec.ofNat 32 (1024 * k + r) := by
  unfold IntOp.addi Scalar.muli Scf.iv
  apply BitVec.eq_of_toNat_eq
  simp only [IntOp.muli, BitVec.toNat_add, BitVec.toNat_mul, BitVec.toNat_ofNat]
  omega

/-- One trip's payload at `(j, d)`: the carried entry plus, over the chunk's 1024 rows, the weight of (the row's number in
    the array, edge `j`'s source word) times the chunk's `(r, d)`. -/
theorem pay2_apply (v0 : Vec Ideal S1x2048 .i32) (k : Fin k1_t1_loop.trips) (acc : FVec Ideal S2048x128 .f32)
    (chunk : Vec Ideal S1024x128 .bf16) (j : Fin 2048) (d : Fin 128) :
    (k1_pay2 (F := Ideal) v0 k acc chunk : S2048x128.Idx → EReal) (ix2 j d)
      = acc (ix2 j d) + ∑ r : Fin 1024, hot (BitVec.ofNat 32 (1024 * k.val + r.val)) (v0 (ix2 (0 : Fin 1) j)) * chunk (ix2 r d) := by
  unfold k1_pay2
  dsimp only
  refine (congrArg (acc (ix2 j d) + ·) (Ideal.matmul_constant_zero_apply dot_S1024x2048_S1024x128_S2048x128_0_0_1_1_n_n none _ _ (ix2 j d))).trans ?_
  refine congrArg (acc (ix2 j d) + ·) ?_
  rw [← Equiv.sum_comp (contrEquiv1 dot_S1024x2048_S1024x128_S2048x128_0_0_1_1_n_n 1024 rfl rfl).symm]
  refine Finset.sum_congr rfl fun r _ => ?_
  have hk := contrEquiv1_symm_val dot_S1024x2048_S1024x128_S2048x128_0_0_1_1_n_n 1024 rfl rfl r
  have el : dot_S1024x2048_S1024x128_S2048x128_0_0_1_1_n_n.lhsIdx (ix2 j d) ((contrEquiv1 dot_S1024x2048_S1024x128_S2048x128_0_0_1_1_n_n 1024 rfl rfl).symm r) = (ix2 r j : S1024x2048.Idx) := funext fun a => Fin.ext (by
    match a with
    | ⟨0, _⟩ => exact (lhs_gdot_0 _ _).trans hk
    | ⟨1, _⟩ => exact lhs_gdot_1 _ _)
  have er : dot_S1024x2048_S1024x128_S2048x128_0_0_1_1_n_n.rhsIdx (ix2 j d) ((contrEquiv1 dot_S1024x2048_S1024x128_S2048x128_0_0_1_1_n_n 1024 rfl rfl).symm r) = (ix2 r d : S1024x128.Idx) := funext fun a => Fin.ext (by
    match a with
    | ⟨0, _⟩ => exact (rhs_gdot_0 _ _).trans hk
    | ⟨1, _⟩ => exact rhs_gdot_1 _ _)
  rw [el, er]
  have hA : (broadcastTo S1024x2048 (addi (broadcast S1024x1 (Scalar.muli (Scf.iv 0#32 1#32 k.val) 1024#32))
      (iota .tc S1024x1 32 [0] iota_S1024x1_d0_w32)) broadcasts_S1024x1_S1024x2048 : S1024x2048.Idx → BitVec 32) (ix2 r j)
      = BitVec.ofNat 32 (1024 * k.val + r.val) := by
    refine (broadcastTo_apply _ _ (ix2 r j) (ix2 r (0 : Fin 1)) (fun a => ?_)).trans ?_
    · match a with
      | ⟨0, _⟩ => rfl
      | ⟨1, _⟩ => rfl
    · show IntOp.addi (Scalar.muli (Scf.iv 0#32 1#32 k.val) 1024#32) (iota .tc S1024x1 32 [0] iota_S1024x1_d0_w32 (ix2 r (0 : Fin 1))) = _
      rw [iota_single_apply]
      exact word_row k.val r.val
  have hB : (broadcastTo S1024x2048 (shapeCast S1x2048 v0 shapeCasts_S1x2048_S1x2048) broadcasts_S1x2048_S1024x2048 : S1024x2048.Idx → BitVec 32) (ix2 r j)
      = v0 (ix2 (0 : Fin 1) j) := by
    refine (broadcastTo_apply _ _ (ix2 r j) (ix2 (0 : Fin 1) j) (fun a => ?_)).trans ?_
    · match a with
      | ⟨0, _⟩ => rfl
      | ⟨1, _⟩ => rfl
    · exact congrFun (shapeCast_self v0 _) _
  refine congrArg₂ (· * ·) ((onehot_apply _ _ _ _ (ix2 r j)).trans (congrArg₂ hot hA hB)) ?_
  exact congrFun (shapeCast_self chunk _) _

/-! ## The fifty trips: the carried block before trip `k` holds the rows below `1024 k` -/

/-- The chunk trip `k` loads, at `(r, d)`: row `1024 k + r` of the projected rows. -/
theorem chunk_apply (arg1 : Memref sig .tc .vmem S51200x128 .bf16) (harg1 : arg1.IsWhole) (x0 : Vec Ideal S51200x128 .bf16)
    (k : Fin k1_t1_loop.trips) (r : Fin 1024) (d : Fin 128) (h : 1024 * k.val + r.val < 51200) :
    View.readAt (Elt Ideal) arg1.view (Rect.unit (s := S51200x128) (k1_off1 k) S1024x128.size (k1_off1_inb k)).toLoadRect (harg1.unread x0) (ix2 r d)
      = x0 (ix2 (⟨1024 * k.val + r.val, h⟩ : Fin 51200) d) := by
  rw [View.readAt_apply, harg1.read_unread]
  refine congrArg x0 (funext fun a => Fin.ext ?_)
  match a with
  | ⟨0, _⟩ =>
    show k1_off1 k 0 + 1 * r.val = 1024 * k.val + r.val
    rw [k1_off1_eq]; simp
  | ⟨1, _⟩ =>
    show k1_off1 k 1 + 1 * d.val = d.val
    rw [k1_off1_eq]; simp

/-- The weighted sum over the rows of the chunks below `k`, for a source word `s` and a column `col` of the projected rows. -/
def rowsBelow (s : BitVec 32) (col : Fin 51200 → EReal) (k : ℕ) : EReal :=
  ∑ q ∈ Finset.range k, ∑ r : Fin 1024,
    if h : 1024 * q + r.val < 51200 then hot (BitVec.ofNat 32 (1024 * q + r.val)) s * col ⟨1024 * q + r.val, h⟩ else 0

/-- All fifty chunks are all 51200 rows. -/
theorem rowsBelow_all (s : BitVec 32) (col : Fin 51200 → EReal) :
    rowsBelow s col 50 = ∑ n : Fin 51200, hot (BitVec.ofNat 32 n.val) s * col n := by
  unfold rowsBelow
  rw [Finset.sum_range, ← Equiv.sum_comp (finProdFinEquiv : Fin 50 × Fin 1024 ≃ Fin 51200), Fintype.sum_prod_type]
  refine Finset.sum_congr rfl fun q _ => Finset.sum_congr rfl fun r _ => ?_
  have hq := q.isLt
  have hr := r.isLt
  have h : 1024 * q.val + r.val < 51200 := by omega
  rw [dif_pos h]
  have e : (finProdFinEquiv (q, r) : Fin 51200) = ⟨1024 * q.val + r.val, h⟩ := Fin.ext (by
    show r.val + 1024 * q.val = 1024 * q.val + r.val
    omega)
  rw [e]

/-- The invariant of the loop: before trip `k` the carried block at `(j, d)` is the weighted sum over the rows below `1024 k`. -/
theorem st_apply (c : Dev nD) (i : grid1.Coords) (arg1 : Memref sig .tc .vmem S51200x128 .bf16) (harg1 : arg1.IsWhole)
    (arg2 : Memref sig .tc .vmem S1x2048 .i32) (harg2 : arg2.IsWhole) (arg3 : Memref sig .tc .vmem S2048x128 .bf16) (harg3 : arg3.IsWhole)
    (x0 : Vec Ideal S51200x128 .bf16) (x1 : Vec Ideal S1x2048 .i32) (j : Fin 2048) (d : Fin 128) :
    ∀ (k : ℕ), k ≤ 50 →
      (st_k1_t1 (F := Ideal) Variants.none c none i arg1 harg1 arg2 harg2 arg3 harg3 x1 (harg1.unread x0) k1_pay1 k : S2048x128.Idx → EReal) (ix2 j d)
        = rowsBelow (x1 (ix2 (0 : Fin 1) j)) (fun n => x0 (ix2 n d)) k
  | 0, _ => by
    show Ideal.ofBits .f32 0x00000000#32 = _
    rw [Ideal.ofBits_zero_f32]
    simp [rowsBelow]
  | k + 1, hk => by
    have hk' : k < k1_t1_loop.trips := by rw [trips1]; omega
    refine (congrFun (st_k1_t1_succ (F := Ideal) Variants.none c none i arg1 harg1 arg2 harg2 arg3 harg3 x1 (harg1.unread x0) k1_pay1 ⟨k, hk'⟩) (ix2 j d)).trans ?_
    refine (congrFun (tripR_eq (F := Ideal) Variants.none c none i arg1 harg1 arg2 harg2 arg3 harg3 x1 (harg1.unread x0) ⟨k, hk'⟩ _) (ix2 j d)).trans ?_
    refine (pay2_apply x1 ⟨k, hk'⟩ _ _ j d).trans ?_
    rw [st_apply c i arg1 harg1 arg2 harg2 arg3 harg3 x0 x1 j d k (by omega)]
    unfold rowsBelow
    rw [Finset.sum_range_succ]
    refine congrArg (_ + ·) (Finset.sum_congr rfl fun r _ => ?_)
    have hr := r.isLt
    have h : 1024 * k + r.val < 51200 := by omega
    rw [dif_pos h]
    exact congrArg (_ * ·) (chunk_apply arg1 harg1 x0 ⟨k, hk'⟩ r d h)

/-- ONE GRID POINT: the block the body leaves, at `(j, d)`, is the weighted sum over all the projected rows, the weights the
    compare of the row's number with edge `j`'s source word. -/
theorem out1_A_2_apply (c : Dev nD) (i : grid1.Coords) (arg1 : Memref sig .tc .vmem S51200x128 .bf16) (harg1 : arg1.IsWhole)
    (arg2 : Memref sig .tc .vmem S1x2048 .i32) (harg2 : arg2.IsWhole) (arg3 : Memref sig .tc .vmem S2048x128 .bf16) (harg3 : arg3.IsWhole)
    (x0 : S51200x128.Idx → EReal) (x1 : S1x2048.Idx → BitVec 32) (j : Fin 2048) (d : Fin 128) :
    (out1_A_2 (F := Ideal) c i arg1 harg1 arg2 harg2 arg3 harg3 x0 x1 : S2048x128.Idx → EReal) (ix2 j d)
      = ∑ n : Fin 51200, hot (BitVec.ofNat 32 n.val) (x1 (ix2 (0 : Fin 1) j)) * x0 (ix2 n d) := by
  refine (congrFun (out1_piece (F := Ideal) c i arg1 harg1 arg2 harg2 arg3 harg3 x0 x1) (ix2 j d)).trans ?_
  refine (st_apply c i arg1 harg1 arg2 harg2 arg3 harg3 x0 x1 j d k1_t1_loop.trips (le_of_eq trips1)).trans ?_
  rw [trips1]
  exact rowsBelow_all _ _

/-! ## From the blocks to the array -/

/-- The messages as ONE function of the two arrays the call reads: at (e, d) the weighted sum over the projected rows. -/
def gathered (V : VT) (c : Dev nD) : S800768x128.Idx → EReal := fun i =>
  ∑ n : Fin 51200, hot (BitVec.ofNat 32 n.val) (srcA V c (ix2 (0 : Fin 1) (⟨(i 0).val, idx2_lt0 i⟩ : Fin 800768)))
    * hA V c (ix2 n (⟨(i 1).val, idx2_lt1 i⟩ : Fin 128))

theorem gathered_ix2 (V : VT) (c : Dev nD) (e : Fin 800768) (d : Fin 128) :
    gathered V c (ix2 e d) = ∑ n : Fin 51200, hot (BitVec.ofNat 32 n.val) (srcA V c (ix2 (0 : Fin 1) e)) * hA V c (ix2 n d) := rfl

/-- The three index maps over the 391 points: the projected rows' block is always the whole array; point t takes the
    source words' block t and writes the messages' block t. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = t.val ∧ win1_2.index t (1 : Fin 2) = 0 :=
  (by decide +kernel : ∀ t : Fin grid1.N, _)

theorem t_lt1 (t : Fin cfg1.N) : t.val < 391 := by
  have h : t.val < grid1.N := t.isLt
  rw [N_1] at h
  exact h

/-- The projected rows' block at any point is the whole array. -/
theorem h_blk (V : VT) (c : Dev nD) (t : Fin cfg1.N) (n : Fin 51200) (d : Fin 128) :
    (iblk1 V c 0 t : S51200x128.Idx → EReal) (ix2 n d) = hA V c (ix2 n d) := by
  obtain ⟨e0, e1, -, -, -, -⟩ := idx_facts1 t
  show V c main_v3 (((cfg1.win 0).blk t).view.emb (ix2 n d)) = V c main_v3 (ix2 n d)
  refine congrArg (V c main_v3) (funext fun a => Fin.ext ?_)
  match a with
  | ⟨0, _⟩ => show win1_0.index t (0 : Fin 2) * 51200 + 1 * n.val = n.val; rw [e0]; omega
  | ⟨1, _⟩ => show win1_0.index t (1 : Fin 2) * 128 + 1 * d.val = d.val; rw [e1]; omega

/-- The source words' block at point t is the words from 2048 t on. -/
theorem src_blk (V : VT) (c : Dev nD) (t : Fin cfg1.N) (j : Fin 2048) (h : 2048 * t.val + j.val < 800768) :
    (iblk1 V c 1 t : S1x2048.Idx → BitVec 32) (ix2 (0 : Fin 1) j) = srcA V c (ix2 (0 : Fin 1) (⟨2048 * t.val + j.val, h⟩ : Fin 800768)) := by
  obtain ⟨-, -, e2, e3, -, -⟩ := idx_facts1 t
  show V c main_v10 (((cfg1.win 1).blk t).view.emb (ix2 (0 : Fin 1) j)) = V c main_v10 (ix2 (0 : Fin 1) (⟨2048 * t.val + j.val, h⟩ : Fin 800768))
  refine congrArg (V c main_v10) (funext fun a => Fin.ext ?_)
  match a with
  | ⟨0, _⟩ => show win1_1.index t (0 : Fin 2) * 1 + 1 * 0 = 0; rw [e2]
  | ⟨1, _⟩ => show win1_1.index t (1 : Fin 2) * 2048 + 1 * j.val = 2048 * t.val + j.val; rw [e3]; omega

/-- Contents X of the output block whose (j, d) is an array G's entry at row 2048 t + j are, as written back at point t,
    block t of G. -/
theorem cut_blk1 (t : Fin cfg1.N) (X : S2048x128.Idx → EReal) (G : S800768x128.Idx → EReal)
    (hX : ∀ (j : Fin 2048) (d : Fin 128) (h : 2048 * t.val + j.val < 800768), X (ix2 j d) = G (ix2 (⟨2048 * t.val + j.val, h⟩ : Fin 800768) d)) :
    (cfg1.win 2).cut (grid1.coords t) X = ((cfg1.win 2).blk t).view.read (Elt Ideal) G := by
  obtain ⟨-, -, -, -, e4, e5⟩ := idx_facts1 t
  have ht := t_lt1 t
  funext y
  obtain ⟨j, d, rfl⟩ : ∃ (j : Fin 2048) (d : Fin 128), y = ix2 j d := ⟨y 0, y 1, eq_ix2 y⟩
  have hj := j.isLt
  have h : 2048 * t.val + j.val < 800768 := by omega
  have hemb : ((cfg1.win 2).blk t).view.emb (ix2 j d) = (ix2 (⟨2048 * t.val + j.val, h⟩ : Fin 800768) d : S800768x128.Idx) :=
    funext fun a => Fin.ext (by
      match a with
      | ⟨0, _⟩ => show win1_2.index t (0 : Fin 2) * 2048 + 1 * j.val = 2048 * t.val + j.val; rw [e4]; omega
      | ⟨1, _⟩ => show win1_2.index t (1 : Fin 2) * 128 + 1 * d.val = d.val; rw [e5]; omega)
  show X (ix2 j d) = G (((cfg1.win 2).blk t).view.emb (ix2 j d))
  rw [hemb]
  exact hX j d h

/-- WHAT POINT t WRITES BACK is block t of the gathered array. -/
theorem flushed1_eq (V : VT) (c : Dev nD) (t : Fin cfg1.N) :
    (dat1 V c).flushed 2 t = ((cfg1.win 2).blk t).view.read (Elt Ideal) (gathered V c) := by
  show (cfg1.win 2).cut (grid1.coords t) ((dat1 V c).after 2 t) = _
  rw [after1_2]
  refine cut_blk1 t (outsAt1 V c t) (gathered V c) fun j d h => ?_
  rw [gathered_ix2]
  refine (out1_A_2_apply c (grid1.coords t) (ms1_0 t) (hs1_0 t) (ms1_1 t) (hs1_1 t) (ms1_2 t) (hs1_2 t) (iblk1 V c 0 t) (iblk1 V c 1 t) j d).trans ?_
  refine Finset.sum_congr rfl fun n _ => ?_
  exact congrArg₂ (· * ·) (congrArg (hot _) (src_blk V c t j h)) (h_blk V c t n d)

/-- An index of the messages is in point t's block iff each coordinate is in the block's range on its axis. -/
theorem mem_blk1 (t : Fin cfg1.N) (i : S800768x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v12).slice (win1_2.rect t)).set ↔ _
  rw [View.set_slice_whole, Rect.mem_set_unit]
  exact Iff.rfl

/-- THE ARRAY after the call: every row e is in the block of point e / 2048, and every point writes back. -/
theorem region1_array (V : VT) (c : Dev nD) : msgOut V c = gathered V c :=
  (dat1 V c).arrAt_eq_of_cover 2 (gathered V c) (fun t _ => flushed1_eq V c t) fun i => by
    have hi0 : (i 0).val < 800768 := (i 0).isLt
    have hi1 : (i 1).val < 128 := (i 1).isLt
    have hN : grid1.N = 391 := N_1
    have hlt : (i 0).val / 2048 < cfg1.N := by show _ < grid1.N; omega
    refine ⟨⟨(i 0).val / 2048, hlt⟩, flush1_2 _, ?_⟩
    obtain ⟨-, -, -, -, e4, e5⟩ := idx_facts1 ⟨(i 0).val / 2048, hlt⟩
    rw [mem_blk1]
    intro a
    match a with
    | ⟨0, _⟩ =>
      show win1_2.index ⟨(i 0).val / 2048, hlt⟩ (0 : Fin 2) * 2048 ≤ (i 0).val ∧ (i 0).val < win1_2.index ⟨(i 0).val / 2048, hlt⟩ (0 : Fin 2) * 2048 + 2048
      rw [e4]; show (i 0).val / 2048 * 2048 ≤ (i 0).val ∧ (i 0).val < (i 0).val / 2048 * 2048 + 2048; omega
    | ⟨1, _⟩ =>
      show win1_2.index ⟨(i 0).val / 2048, hlt⟩ (1 : Fin 2) * 128 ≤ (i 1).val ∧ (i 1).val < win1_2.index ⟨(i 0).val / 2048, hlt⟩ (1 : Fin 2) * 128 + 128
      rw [e5]; omega

end Gather

/-- After the gather call, message `(e, d)` is the sum over the rows `n` of the weight of (`n`, edge `e`'s source word) times the
    projected `(n, d)`. -/
theorem region1_value (V : VT) (c : Dev nD) (e : Fin 800768) (d : Fin 128) :
    msgOut V c (ix2 e d) = ∑ n : Fin 51200, hot (BitVec.ofNat 32 n.val) (srcA V c (ix2 (0 : Fin 1) e)) * hA V c (ix2 n d) :=
  (congrFun (Gather.region1_array V c) (ix2 e d)).trans (Gather.gathered_ix2 V c e d)

end Cert.KernelIdeal.KVal

end
-- ==== Proof.ScatterPoint.lean ====
/-
  One grid point of the scatter-add call, on any staging buffers: what it leaves in the output block, entry by entry.
  The block has 25600 rows; the point's half `p` (its first grid coordinate) places row `r` of the block at row
  `25600 p + r` of the whole array, and that is the number the body compares with each of the 2048 target words of the point's
  edge block. Chunk by chunk of 1024 rows the body adds the product of that one-hot compare with the 2048 messages of the
  block. At the first edge block of a half the output block is cleared first; at the others it starts from what the
  point before left.

  The order of the lemmas: the weight of one compare; the word a row is compared with; the product of a chunk read at an
  entry; one chunk's payload at an entry; one chunk store and one chunk load read at an entry; the loop over the 25 chunks
  by induction on the trips (after `k` trips the rows below `1024 k` hold the start contents plus the weighted sum, the
  rows from `1024 k` on the start contents); the two kinds of point.
-/
import proofs.«412696_j13280038879717_2_alg».proof.Proof.Arrays
import Idealize.ShloMosaic.PureOps.Ideal.Laws

noncomputable section

open scoped BigOperators

namespace Cert.KernelIdeal.KVal.ScatterPoint

open Idealize.ShloMosaic Idealize.ShloMosaic.ValueIdx Idealize.ShloMosaic.TcCoe Idealize.SL.Sem
open Cert.KernelIdeal Cert.KernelIdeal.Gen Cert.Spec

/-- The weight of a one-hot compare read back as a float: the zero-extended one-bit result of comparing two words for
    equality, converted to a float, is one when the words are the same and zero otherwise. -/
theorem sitofp_cmpi_eq (a b : BitVec 32) :
    ((((IntOp.cmpi .eq a b).setWidth 32).toInt : ℝ) : EReal) = hot a b := by
  unfold hot IntOp.cmpi
  by_cases h : a = b
  · subst h; simp
  · have hb : (a == b) = false := beq_eq_false_iff_ne.mpr h
    simp [h, hb]

/-- The word a row of a chunk is compared with: the half's first row, plus the chunk's first row, plus the row inside the
    chunk. Sums and products of 32-bit words are the words of the sums and products of the numbers. -/
theorem row_word (p r' : ℕ) (k : Fin k2_t1_loop.trips) :
    IntOp.addi (Scalar.addi (Scalar.muli (BitVec.ofNat 32 p) 25600#32)
        (Scalar.muli (Scalar.addi 0#32 (Scalar.muli (Scf.iv 0#32 1#32 k) 1#32)) 1024#32)) (BitVec.ofNat 32 r')
      = BitVec.ofNat 32 (p * 25600 + 1024 * k.val + r') := by
  unfold Scalar.addi Scalar.muli IntOp.addi IntOp.muli Scf.iv
  simp only [BitVec.ofNat_add, BitVec.ofNat_mul]
  rw [BitVec.zero_add, BitVec.zero_add, BitVec.mul_one, BitVec.mul_one, BitVec.mul_comm (BitVec.ofNat 32 k.val)]

/-- The four coordinates of the product's operand indices: at output entry `i` and contraction position `q` the left operand
    is read at row `i 0`, column `q`, -/
theorem lhs_mm_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_mm_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- and the right operand at row `q`, column `i 1`. -/
theorem rhs_mm_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_mm_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The chunk's product read at an entry: row `r'` of the one-hot block times column `d` of the messages, summed over the
    2048 edges of the block. -/
theorem mm_apply (A : FVec Ideal S1024x2048 .bf16) (B : FVec Ideal S2048x128 .bf16) (r' : Fin 1024) (d : Fin 128) :
    (matmul dot_S1024x2048_S2048x128_S1024x128_1_0_0_1_n_n none A B (constant (F := Ideal) S1024x128 .f32 0x00000000#32)
      : S1024x128.Idx → EReal) (ix2 r' d) = ∑ j : Fin 2048, A (ix2 r' j) * B (ix2 j d) := by
  refine (Ideal.matmul_constant_zero_apply dot_S1024x2048_S2048x128_S1024x128_1_0_0_1_n_n none A B (ix2 r' d)).trans ?_
  rw [← Equiv.sum_comp (contrEquiv1 dot_S1024x2048_S2048x128_S1024x128_1_0_0_1_n_n 2048 rfl rfl).symm]
  refine Finset.sum_congr rfl fun j _ => ?_
  have hk := contrEquiv1_symm_val dot_S1024x2048_S2048x128_S1024x128_1_0_0_1_n_n 2048 rfl rfl j
  have el : dot_S1024x2048_S2048x128_S1024x128_1_0_0_1_n_n.lhsIdx (ix2 r' d) ((contrEquiv1 dot_S1024x2048_S2048x128_S1024x128_1_0_0_1_n_n 2048 rfl rfl).symm j) = ix2 r' j := funext fun a => Fin.ext (by
    match a with
    | ⟨0, _⟩ => exact lhs_mm_0 _ _
    | ⟨1, _⟩ => exact (lhs_mm_1 _ _).trans hk)
  have er : dot_S1024x2048_S2048x128_S1024x128_1_0_0_1_n_n.rhsIdx (ix2 r' d) ((contrEquiv1 dot_S1024x2048_S2048x128_S1024x128_1_0_0_1_n_n 2048 rfl rfl).symm j) = ix2 j d := funext fun a => Fin.ext (by
    match a with
    | ⟨0, _⟩ => exact (rhs_mm_0 _ _).trans hk
    | ⟨1, _⟩ => exact rhs_mm_1 _ _)
  rw [el, er]

/-- The zero offsets of a whole-buffer access. -/
theorem hz2 : (![0, 0] : Fin 2 → Nat) = fun _ => 0 := funext fun a => by fin_cases a <;> rfl

/-- The compared word of row `r'` of chunk `k`, read off the broadcast column of row numbers. -/
theorem rows_apply (p : ℕ) (k : Fin k2_t1_loop.trips) (r' : Fin 1024) (j : Fin 2048) :
    (broadcastTo S1024x2048
      (addi
        (broadcast S1024x1
          (Scalar.addi (Scalar.muli (BitVec.ofNat 32 p) 25600#32)
            (Scalar.muli (Scalar.addi (0#32) (Scalar.muli (Scf.iv 0#32 1#32 k) 1#32)) 1024#32)))
        (iota Kind.tc S1024x1 32 [0] iota_S1024x1_d0_w32))
      broadcasts_S1024x1_S1024x2048 : S1024x2048.Idx → BitVec 32) (ix2 r' j)
      = BitVec.ofNat 32 (p * 25600 + 1024 * k.val + r'.val) := by
  refine (broadcastTo_apply _ broadcasts_S1024x1_S1024x2048 (ix2 r' j) (ix2 r' (0 : Fin 1))
    (fun a => match a with | ⟨0, _⟩ => rfl | ⟨1, _⟩ => rfl)).trans ?_
  refine Eq.trans ?_ (row_word p r'.val k)
  exact congrArg (IntOp.addi _) (iota_single_apply Kind.tc S1024x1 32 0 iota_S1024x1_d0_w32 (ix2 r' (0 : Fin 1)))

/-- The target word of edge `j` of the block, read off the broadcast row of target words. -/
theorem cols_apply (v3 : S1x2048.Idx → BitVec 32) (r' : Fin 1024) (j : Fin 2048) :
    (broadcastTo S1024x2048 v3 broadcasts_S1x2048_S1024x2048 : S1024x2048.Idx → BitVec 32) (ix2 r' j)
      = v3 (ix2 (0 : Fin 1) j) :=
  broadcastTo_apply _ broadcasts_S1x2048_S1024x2048 (ix2 r' j) (ix2 (0 : Fin 1) j)
    (fun a => match a with | ⟨0, _⟩ => rfl | ⟨1, _⟩ => rfl)

set_option maxHeartbeats 400000 in
/-- One chunk's payload at an entry: what the chunk held there plus the one-hot-weighted sum of the block's messages. -/
theorem pay2_apply (i : grid2.Coords) (v3 : S1x2048.Idx → BitVec 32) (v5 : S2048x128.Idx → EReal)
    (k : Fin k2_t1_loop.trips) (v25 : S1024x128.Idx → EReal) (r' : Fin 1024) (d : Fin 128) :
    (k2_pay2 (F := Ideal) i v3 v5 k v25 : S1024x128.Idx → EReal) (ix2 r' d)
      = v25 (ix2 r' d) + ∑ j : Fin 2048,
          hot (BitVec.ofNat 32 ((i 0).val * 25600 + 1024 * k.val + r'.val)) (v3 (ix2 (0 : Fin 1) j)) * v5 (ix2 j d) := by
  unfold k2_pay2
  dsimp only
  rw [shapeCast_self, shapeCast_self, shapeCast_self]
  refine (addf_apply _ _ _).trans ?_
  refine congrArg (v25 (ix2 r' d) + ·) ?_
  refine (mm_apply _ _ r' d).trans ?_
  refine Finset.sum_congr rfl fun j _ => ?_
  refine congrArg (· * v5 (ix2 j d)) ?_
  refine (sitofp_cmpi_eq _ _).trans ?_
  rw [rows_apply, cols_apply]

/-- The loop runs 25 trips. -/
theorem trips_eq : k2_t1_loop.trips = 25 := by decide

/-- One trip's piece: a store of the chunk's payload, computed from the chunk as the trip finds it, at the chunk's rows. -/
theorem tripL_eq (c : Dev nD) (i : grid2.Coords) (arg2 : Memref sig .tc .vmem S2048x128 .bf16) (harg2 : arg2.IsWhole)
    (arg3 : Memref sig .tc .vmem S1x2048 .i32) (harg3 : arg3.IsWhole) (arg4 : Memref sig .tc .vmem S25600x128 .f32)
    (harg4 : arg4.IsWhole) (v3 : S1x2048.Idx → BitVec 32) (v5 : S2048x128.Idx → EReal)
    (k : Fin k2_t1_loop.trips) (f : BufTy.Contents (Elt Ideal) arg4.view.ty) :
    tripL_k2_t1 (F := Ideal) Variants.none c none i arg2 harg2 arg3 harg3 arg4 harg4 v3 v5 k f
      = [⟨Rect.unit (s := S25600x128) (k2_off1 k) S1024x128.size (k2_off1_inb k),
          k2_pay2 (F := Ideal) i v3 v5 k
            (View.readAt (Elt Ideal) arg4.view (Rect.unit (s := S25600x128) (k2_off1 k) S1024x128.size (k2_off1_inb k)).toLoadRect f)⟩] := by
  unfold tripL_k2_t1 trip_k2_t1
  rfl

/-- One store of a chunk of 1024 rows into the block, read back at an entry: inside the chunk's rows the payload at the
    row's place in the chunk, outside them what was there. -/
theorem read_chunk_store {sg : RefSig} (v : View sg .tc .vmem S25600x128 .f32) (f : v.ty.Contents (Elt Ideal)) (k : ℕ)
    (off : Fin 2 → ℕ) (hoff : off = ![1024 * k, 0]) (inb : ∀ a, off a + S1024x128.size a ≤ S25600x128.size a)
    (w : S1024x128.Idx → EReal) (r : Fin 25600) (d : Fin 128) :
    (v.read (Elt Ideal) (v.writes (Elt Ideal) f [⟨Rect.unit (s := S25600x128) off S1024x128.size inb, w⟩]) : S25600x128.Idx → EReal) (ix2 r d)
      = if h : 1024 * k ≤ r.val ∧ r.val < 1024 * k + 1024 then w (ix2 (⟨r.val - 1024 * k, by omega⟩ : Fin 1024) d)
        else (v.read (Elt Ideal) f : S25600x128.Idx → EReal) (ix2 r d) := by
  subst hoff
  by_cases h : 1024 * k ≤ r.val ∧ r.val < 1024 * k + 1024
  · rw [dif_pos h]
    have e : ix2 r d = (Rect.unit (s := S25600x128) ![1024 * k, 0] S1024x128.size inb).emb (ix2 (⟨r.val - 1024 * k, by omega⟩ : Fin 1024) d) :=
      funext fun a => Fin.ext (by
        match a with
        | ⟨0, _⟩ => show r.val = 1024 * k + 1 * (r.val - 1024 * k); omega
        | ⟨1, _⟩ => show d.val = 0 + 1 * d.val; omega)
    exact (congrArg (v.read (Elt Ideal) (v.writes (Elt Ideal) f [⟨Rect.unit (s := S25600x128) ![1024 * k, 0] S1024x128.size inb, w⟩])) e).trans
      (View.read_writes_cons_emb v f (Rect.unit (s := S25600x128) ![1024 * k, 0] S1024x128.size inb) w []
        (ix2 (⟨r.val - 1024 * k, by omega⟩ : Fin 1024) d))
  · rw [dif_neg h]
    rw [View.writes_singleton]
    refine View.read_slice_write_of_not_mem (v := v) (Rect.unit (s := S25600x128) ![1024 * k, 0] S1024x128.size inb) f w Finset.univ (y := ix2 r d) ?_
    rw [Rect.map_emb_univ, Rect.mem_set_unit]
    intro hm
    have h0 := hm 0
    have h0' : 1024 * k ≤ r.val ∧ r.val < 1024 * k + 1024 := h0
    exact h h0'

/-- A load of a chunk of 1024 rows of the block, read at an entry: the block's entry at the chunk's row. -/
theorem readAt_chunk {sg : RefSig} (v : View sg .tc .vmem S25600x128 .f32) (f : v.ty.Contents (Elt Ideal)) (k : ℕ)
    (off : Fin 2 → ℕ) (hoff : off = ![1024 * k, 0]) (inb : ∀ a, off a + S1024x128.size a ≤ S25600x128.size a)
    (r : Fin 25600) (d : Fin 128) (h : 1024 * k ≤ r.val ∧ r.val < 1024 * k + 1024) :
    (v.readAt (Elt Ideal) (Rect.unit (s := S25600x128) off S1024x128.size inb).toLoadRect f : S1024x128.Idx → EReal)
        (ix2 (⟨r.val - 1024 * k, by omega⟩ : Fin 1024) d)
      = (v.read (Elt Ideal) f : S25600x128.Idx → EReal) (ix2 r d) := by
  subst hoff
  exact congrArg (v.read (Elt Ideal) f) (funext fun a => Fin.ext (by
    match a with
    | ⟨0, _⟩ => show 1024 * k + 1 * (r.val - 1024 * k) = r.val; omega
    | ⟨1, _⟩ => show 0 + 1 * d.val = d.val; omega))

/-- The loop over the chunks, after `k` trips from contents `G`: the rows of the first `k` chunks hold what `G` held
    plus the one-hot-weighted sum of the block's messages, the rows from chunk `k` on hold what `G` held. -/
theorem loop_read (c : Dev nD) (i : grid2.Coords) (arg2 : Memref sig .tc .vmem S2048x128 .bf16) (harg2 : arg2.IsWhole)
    (arg3 : Memref sig .tc .vmem S1x2048 .i32) (harg3 : arg3.IsWhole) (arg4 : Memref sig .tc .vmem S25600x128 .f32)
    (harg4 : arg4.IsWhole) (x0 : S2048x128.Idx → EReal) (x1 : S1x2048.Idx → BitVec 32)
    (G : BufTy.Contents (Elt Ideal) arg4.view.ty) (k : ℕ) (hk : k ≤ 25) (r : Fin 25600) (d : Fin 128) :
    (arg4.view.read (Elt Ideal) (arg4.view.writes (Elt Ideal) G
        (pb_k2_t1 (F := Ideal) Variants.none c none i arg2 harg2 arg3 harg3 arg4 harg4 x1 x0 G k)) : S25600x128.Idx → EReal) (ix2 r d)
      = if r.val < 1024 * k then
          (arg4.view.read (Elt Ideal) G : S25600x128.Idx → EReal) (ix2 r d)
            + ∑ j : Fin 2048, hot (BitVec.ofNat 32 ((i 0).val * 25600 + r.val)) (x1 (ix2 (0 : Fin 1) j)) * x0 (ix2 j d)
        else (arg4.view.read (Elt Ideal) G : S25600x128.Idx → EReal) (ix2 r d) := by
  induction k with
  | zero => rw [if_neg (by omega)]; rfl
  | succ k ih =>
    have hk' : k < k2_t1_loop.trips := by rw [trips_eq]; omega
    have e : pb_k2_t1 (F := Ideal) Variants.none c none i arg2 harg2 arg3 harg3 arg4 harg4 x1 x0 G (k + 1)
        = tripL_k2_t1 (F := Ideal) Variants.none c none i arg2 harg2 arg3 harg3 arg4 harg4 x1 x0 ⟨k, hk'⟩
            (arg4.view.writes (Elt Ideal) G (pb_k2_t1 (F := Ideal) Variants.none c none i arg2 harg2 arg3 harg3 arg4 harg4 x1 x0 G k))
          ++ pb_k2_t1 (F := Ideal) Variants.none c none i arg2 harg2 arg3 harg3 arg4 harg4 x1 x0 G k :=
      pb_k2_t1_succ (F := Ideal) Variants.none c none i arg2 harg2 arg3 harg3 arg4 harg4 x1 x0 G ⟨k, hk'⟩
    rw [e, tripL_eq, View.writes_append]
    refine (read_chunk_store arg4.view _ k (k2_off1 ⟨k, hk'⟩) (k2_off1_eq ⟨k, hk'⟩) (k2_off1_inb ⟨k, hk'⟩) _ r d).trans ?_
    by_cases h : 1024 * k ≤ r.val ∧ r.val < 1024 * k + 1024
    · rw [dif_pos h, if_pos (by omega)]
      refine (pay2_apply i x1 x0 ⟨k, hk'⟩ _ _ d).trans ?_
      rw [readAt_chunk arg4.view _ k (k2_off1 ⟨k, hk'⟩) (k2_off1_eq ⟨k, hk'⟩) (k2_off1_inb ⟨k, hk'⟩) r d h,
        ih (by omega), if_neg (by omega)]
      have hn : (i 0).val * 25600 + 1024 * k + (r.val - 1024 * k) = (i 0).val * 25600 + r.val := by omega
      show _ + ∑ j : Fin 2048, hot (BitVec.ofNat 32 ((i 0).val * 25600 + 1024 * k + (r.val - 1024 * k))) _ * _ = _
      rw [hn]
    · rw [dif_neg h, ih (by omega)]
      by_cases h2 : r.val < 1024 * k
      · rw [if_pos h2, if_pos (by omega)]
      · rw [if_neg h2, if_neg (by omega)]

/-- The zeros a clearing point stores, read at an entry. -/
theorem pay1_apply (r : Fin 25600) (d : Fin 128) :
    (k2_pay1 (F := Ideal) : S25600x128.Idx → EReal) (ix2 r d) = 0 := by
  unfold k2_pay1
  exact Ideal.ofBits_zero_f32

/-- One store of zeros over the whole block, read back at an entry. -/
theorem read_clear {sg : RefSig} (v : View sg .tc .vmem S25600x128 .f32) (f : v.ty.Contents (Elt Ideal))
    (inb : ∀ a, (![0, 0] : Fin 2 → ℕ) a + S25600x128.size a ≤ S25600x128.size a) (r : Fin 25600) (d : Fin 128) :
    (v.read (Elt Ideal) (v.writes (Elt Ideal) f
        [⟨Rect.unit (s := S25600x128) ![0, 0] S25600x128.size inb, k2_pay1 (F := Ideal)⟩]) : S25600x128.Idx → EReal) (ix2 r d)
      = 0 := by
  have e : ix2 r d = (Rect.unit (s := S25600x128) ![0, 0] S25600x128.size inb).emb (ix2 r d) :=
    funext fun a => Fin.ext (by
      match a with
      | ⟨0, _⟩ => show r.val = 0 + 1 * r.val; omega
      | ⟨1, _⟩ => show d.val = 0 + 1 * d.val; omega)
  exact ((congrArg (v.read (Elt Ideal) (v.writes (Elt Ideal) f
      [⟨Rect.unit (s := S25600x128) ![0, 0] S25600x128.size inb, k2_pay1 (F := Ideal)⟩])) e).trans
    (View.read_writes_cons_emb v f (Rect.unit (s := S25600x128) ![0, 0] S25600x128.size inb) (k2_pay1 (F := Ideal)) []
      (ix2 r d))).trans (pay1_apply r d)

end Cert.KernelIdeal.KVal.ScatterPoint

namespace Cert.KernelIdeal.KVal

open Idealize.ShloMosaic Idealize.ShloMosaic.ValueIdx Idealize.ShloMosaic.TcCoe Idealize.SL.Sem
open Cert.KernelIdeal Cert.KernelIdeal.Gen Cert.Spec
open Cert.KernelIdeal.KVal.ScatterPoint

set_option maxHeartbeats 400000 in
/-- A point that clears first (the first edge block of a half): the block ends at the one-hot-weighted sum of the point's
    messages. -/
theorem out2_A_2_apply (c : Dev nD) (i : grid2.Coords) (arg2 : Memref sig .tc .vmem S2048x128 .bf16) (harg2 : arg2.IsWhole)
    (arg3 : Memref sig .tc .vmem S1x2048 .i32) (harg3 : arg3.IsWhole) (arg4 : Memref sig .tc .vmem S25600x128 .f32)
    (harg4 : arg4.IsWhole) (hc0 : cond2_0 i) (x0 : S2048x128.Idx → EReal) (x1 : S1x2048.Idx → BitVec 32)
    (r : Fin 25600) (d : Fin 128) :
    (out2_A_2 (F := Ideal) c i arg2 harg2 arg3 harg3 arg4 harg4 hc0 x0 x1 : S25600x128.Idx → EReal) (ix2 r d)
      = ∑ j : Fin 2048, hot (BitVec.ofNat 32 ((i 0).val * 25600 + r.val)) (x1 (ix2 (0 : Fin 1) j)) * x0 (ix2 j d) := by
  unfold out2_A_2
  refine (View.read_writes_apply_eq VO2_2 VO2_2.junk arg4.view arg4.view.junk (ix2 r d) _
    (cover2_A_2 (F := Ideal) c i arg2 harg2 arg3 harg3 arg4 harg4 hc0 x0 x1 (ix2 r d))).trans ?_
  unfold kernelRun2_A
  dsimp only
  sl_unfold_words
  simp only [View.readAt_eq_ld, harg3.read_unread, harg2.read_unread, View.ld_unit_zero (S := S1x2048) hz2,
    View.ld_unit_zero (S := S2048x128) hz2]
  rw [View.writes_append]
  refine (loop_read c i arg2 harg2 arg3 harg3 arg4 harg4 x0 x1 _ 25 le_rfl r d).trans ?_
  rw [if_pos (by omega)]
  exact (congrArg (· + ∑ j : Fin 2048, hot (BitVec.ofNat 32 ((i 0).val * 25600 + r.val)) (x1 (ix2 (0 : Fin 1) j)) * x0 (ix2 j d))
    (read_clear arg4.view arg4.view.junk inb_S25600x128_S25600x128_0_0 r d)).trans (zero_add _)

set_option maxHeartbeats 400000 in
/-- Any other point: the block ends at what it held (`xo2`) plus the one-hot-weighted sum of the point's messages. -/
theorem out2_B_2_apply (c : Dev nD) (i : grid2.Coords) (arg2 : Memref sig .tc .vmem S2048x128 .bf16) (harg2 : arg2.IsWhole)
    (arg3 : Memref sig .tc .vmem S1x2048 .i32) (harg3 : arg3.IsWhole) (arg4 : Memref sig .tc .vmem S25600x128 .f32)
    (harg4 : arg4.IsWhole) (hc0 : ¬cond2_0 i) (x0 : S2048x128.Idx → EReal) (x1 : S1x2048.Idx → BitVec 32)
    (xo2 : S25600x128.Idx → EReal) (r : Fin 25600) (d : Fin 128) :
    (out2_B_2 (F := Ideal) c i arg2 harg2 arg3 harg3 arg4 harg4 hc0 x0 x1 xo2 : S25600x128.Idx → EReal) (ix2 r d)
      = xo2 (ix2 r d)
        + ∑ j : Fin 2048, hot (BitVec.ofNat 32 ((i 0).val * 25600 + r.val)) (x1 (ix2 (0 : Fin 1) j)) * x0 (ix2 j d) := by
  unfold out2_B_2
  refine (View.read_writes_apply_eq VO2_2 VO2_2.junk arg4.view (harg4.unread xo2) (ix2 r d) _
    (cover2_B_2 (F := Ideal) c i arg2 harg2 arg3 harg3 arg4 harg4 hc0 x0 x1 xo2 (ix2 r d))).trans ?_
  unfold kernelRun2_B
  dsimp only
  simp only [View.readAt_eq_ld, harg3.read_unread, harg2.read_unread, View.ld_unit_zero (S := S1x2048) hz2,
    View.ld_unit_zero (S := S2048x128) hz2]
  refine (loop_read c i arg2 harg2 arg3 harg3 arg4 harg4 x0 x1 (harg4.unread xo2) 25 le_rfl r d).trans ?_
  rw [if_pos (by omega), harg4.read_unread]

end Cert.KernelIdeal.KVal

end
-- ==== Proof.Scatter.lean ====
/-
  The scatter-add call. The grid is two halves of the rows by 391 blocks of 2048 edges. A half's output block is cleared at its
  first edge block and then, at every edge block, each chunk of 1024 rows gains the product of the one-hot compare (row
  number against target word) with the block of messages; the block is written back when the half ends. So a row's sum is
  the one-hot-weighted sum of all the messages.

  From one grid point to the array. Point `t = 391 p + q` reads edge block `q` (edges `2048 q … 2048 q + 2047`) and works on
  the output block of half `p` (rows `25600 p … 25600 p + 25599`). By induction on the point, after point `t` row `r` of the
  block holds the shares of the edges below `2048 (q + 1)` for row `25600 p + r`; at `q = 390` these are all `800768` edges,
  and that is the point at which the block is written back. The two written blocks are the two halves of the rows.
-/
import proofs.«412696_j13280038879717_2_alg».proof.Proof.Arrays
import proofs.«412696_j13280038879717_2_alg».proof.Proof.ScatterPoint
import Idealize.ShloMosaic.PureOps.Ideal.Laws

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen Cert.Spec

namespace ScatterArr

/-- The block of messages and the block of target words point `t` reads, and the output block after point `n`. -/
abbrev msgBlk (V : VT) (c : Dev nD) (t : Fin cfg2.N) : S2048x128.Idx → EReal := iblk2 V c 0 t
abbrev dstBlk (V : VT) (c : Dev nD) (t : Fin cfg2.N) : S1x2048.Idx → BitVec 32 := iblk2 V c 1 t
abbrev accBlk (V : VT) (c : Dev nD) (n : ℕ) (hn : n < cfg2.N) : S25600x128.Idx → EReal := outsAt2 V c n hn

/-- The index maps in closed form, over the whole grid: at point `t = 391 p + q` the messages' block index is `(q, 0)`, the
    target words' `(0, q)`, the output's `(p, 0)`, and the first grid coordinate is `p`. -/
theorem idx_facts : ∀ t : Fin cfg2.N,
    win2_0.index t (0 : Fin 2) = t.val % 391 ∧ win2_0.index t (1 : Fin 2) = 0
    ∧ win2_1.index t (0 : Fin 2) = 0 ∧ win2_1.index t (1 : Fin 2) = t.val % 391
    ∧ win2_2.index t (0 : Fin 2) = t.val / 391 ∧ win2_2.index t (1 : Fin 2) = 0
    ∧ ((grid2.coords t) 0).val = t.val / 391 :=
  (by decide +kernel : ∀ t : Fin grid2.N, _)

/-- Entry `(j, d)` of the block of messages at point `t` is message `(2048 q + j, d)`, `q = t % 391`. -/
theorem msgBlk_apply (V : VT) (c : Dev nD) (t : Fin cfg2.N) (j : Fin 2048) (d : Fin 128)
    (h : 2048 * (t.val % 391) + j.val < 800768) :
    msgBlk V c t (ix2 j d) = msgA V c (ix2 ⟨2048 * (t.val % 391) + j.val, h⟩ d) := by
  obtain ⟨e0, e1, -⟩ := idx_facts t
  show V c main_v12 (((cfg2.win 0).blk t).view.emb (ix2 j d)) = V c main_v12 _
  congr 1
  funext a
  apply Fin.ext
  match a with
  | ⟨0, _⟩ => show win2_0.index t (0 : Fin 2) * 2048 + 1 * j.val = 2048 * (t.val % 391) + j.val; omega
  | ⟨1, _⟩ => show win2_0.index t (1 : Fin 2) * 128 + 1 * d.val = d.val; omega

/-- Entry `(0, j)` of the block of target words at point `t` is target word `2048 q + j`, `q = t % 391`. -/
theorem dstBlk_apply (V : VT) (c : Dev nD) (t : Fin cfg2.N) (j : Fin 2048)
    (h : 2048 * (t.val % 391) + j.val < 800768) :
    dstBlk V c t (ix2 (0 : Fin 1) j) = dstA V c (ix2 (0 : Fin 1) ⟨2048 * (t.val % 391) + j.val, h⟩) := by
  obtain ⟨-, -, e2, e3, -⟩ := idx_facts t
  show V c main_v11 (((cfg2.win 1).blk t).view.emb (ix2 (0 : Fin 1) j)) = V c main_v11 _
  congr 1
  funext a
  apply Fin.ext
  match a with
  | ⟨0, _⟩ => show win2_1.index t (0 : Fin 2) * 1 + 1 * 0 = 0; omega
  | ⟨1, _⟩ => show win2_1.index t (1 : Fin 2) * 2048 + 1 * j.val = 2048 * (t.val % 391) + j.val; omega

/-- Edge `e`'s share of row `row` at feature `d`: the weight of (`row`, the edge's target word) times the edge's
    message; zero past the last edge, so that a sum over a range of naturals needs no bound. -/
def share (V : VT) (c : Dev nD) (row : ℕ) (d : Fin 128) (e : ℕ) : EReal :=
  if h : e < 800768 then hot (BitVec.ofNat 32 row) (dstA V c (ix2 (0 : Fin 1) ⟨e, h⟩)) * msgA V c (ix2 ⟨e, h⟩ d) else 0

theorem share_of_lt (V : VT) (c : Dev nD) (row : ℕ) (d : Fin 128) (e : ℕ) (h : e < 800768) :
    share V c row d e = hot (BitVec.ofNat 32 row) (dstA V c (ix2 (0 : Fin 1) ⟨e, h⟩)) * msgA V c (ix2 ⟨e, h⟩ d) := dif_pos h

/-- What a point adds to a row: the shares of the 2048 edges of its edge block. -/
theorem point_sum (V : VT) (c : Dev nD) (t : Fin cfg2.N) (row : ℕ) (d : Fin 128) :
    (∑ j : Fin 2048, hot (BitVec.ofNat 32 row) (dstBlk V c t (ix2 (0 : Fin 1) j)) * msgBlk V c t (ix2 j d))
      = ∑ j ∈ Finset.range 2048, share V c row d (2048 * (t.val % 391) + j) := by
  rw [← Fin.sum_univ_eq_sum_range (fun j => share V c row d (2048 * (t.val % 391) + j)) 2048]
  refine Finset.sum_congr rfl fun j _ => ?_
  have hq : t.val % 391 < 391 := Nat.mod_lt _ (by decide)
  have h : 2048 * (t.val % 391) + j.val < 800768 := by have := j.isLt; omega
  rw [share_of_lt V c row d _ h, dstBlk_apply V c t j h, msgBlk_apply V c t j d h]

/-- The edges below `2048 (q + 1)` are those below `2048 q` and the 2048 of edge block `q`. -/
theorem range_step (f : ℕ → EReal) (q : ℕ) :
    ∑ e ∈ Finset.range (2048 * (q + 1)), f e
      = ∑ e ∈ Finset.range (2048 * q), f e + ∑ j ∈ Finset.range 2048, f (2048 * q + j) := by
  rw [show 2048 * (q + 1) = 2048 * q + 2048 from by omega, Finset.sum_range_add]

/-- THE INVARIANT. After point `n = 391 p + q` row `r` of the output block holds, for row `25600 p + r` of the array, the
    shares of the edges below `2048 (q + 1)`: the edge blocks `0 … q` of half `p`. At `q = 0` the block was cleared first, so
    it holds edge block 0's shares alone; at the other points it holds what the point before left (same half, edge blocks
    below `q`) plus edge block `q`'s. -/
theorem accBlk_apply (V : VT) (c : Dev nD) : ∀ (n : ℕ) (hn : n < cfg2.N) (r : Fin 25600) (d : Fin 128),
    accBlk V c n hn (ix2 r d)
      = ∑ e ∈ Finset.range (2048 * (n % 391 + 1)), share V c (n / 391 * 25600 + r.val) d e := by
  intro n
  induction n using Nat.strong_induction_on with
  | _ n ih =>
    intro hn r d
    obtain ⟨-, -, -, -, -, -, ec⟩ := idx_facts ⟨n, hn⟩
    have ec' : ((grid2.coords ⟨n, hn⟩) 0).val = n / 391 := ec
    by_cases h0 : n % 391 = 0
    · show outsAt2 V c n hn (ix2 r d) = _
      rw [outsAt2_A V c ⟨n, hn⟩ h0]
      refine (out2_A_2_apply c (grid2.coords ⟨n, hn⟩) (ms2_0 ⟨n, hn⟩) (hs2_0 ⟨n, hn⟩) (ms2_1 ⟨n, hn⟩) (hs2_1 ⟨n, hn⟩)
        (ms2_2 ⟨n, hn⟩) (hs2_2 ⟨n, hn⟩) ((hcond2_0 ⟨n, hn⟩).mpr h0) (msgBlk V c ⟨n, hn⟩) (dstBlk V c ⟨n, hn⟩) r d).trans ?_
      rw [point_sum V c ⟨n, hn⟩ _ d, ec', range_step]
      show ∑ j ∈ Finset.range 2048, share V c (n / 391 * 25600 + r.val) d (2048 * (n % 391) + j) = _
      rw [h0, Nat.mul_zero, Finset.sum_range_zero, zero_add]
    · have hn' : n - 1 < cfg2.N := Nat.lt_of_le_of_lt (Nat.sub_le _ _) hn
      have e1 : (n - 1) % 391 + 1 = n % 391 := by omega
      have e2 : (n - 1) / 391 = n / 391 := by omega
      have hprev := ih (n - 1) (by omega) hn' r d
      rw [e1, e2] at hprev
      show outsAt2 V c n hn (ix2 r d) = _
      rw [outsAt2_B V c ⟨n, hn⟩ h0]
      refine (out2_B_2_apply c (grid2.coords ⟨n, hn⟩) (ms2_0 ⟨n, hn⟩) (hs2_0 ⟨n, hn⟩) (ms2_1 ⟨n, hn⟩) (hs2_1 ⟨n, hn⟩)
        (ms2_2 ⟨n, hn⟩) (hs2_2 ⟨n, hn⟩) (fun h => h0 ((hcond2_0 ⟨n, hn⟩).mp h)) (msgBlk V c ⟨n, hn⟩) (dstBlk V c ⟨n, hn⟩)
        (accBlk V c (n - 1) hn') r d).trans ?_
      rw [point_sum V c ⟨n, hn⟩ _ d, ec', range_step, hprev]

/-- All the edges' shares of a row are the one-hot-weighted sum of all the messages. -/
theorem sum_share (V : VT) (c : Dev nD) (row : ℕ) (d : Fin 128) :
    ∑ e ∈ Finset.range 800768, share V c row d e
      = ∑ e : Fin 800768, hot (BitVec.ofNat 32 row) (dstA V c (ix2 (0 : Fin 1) e)) * msgA V c (ix2 e d) := by
  rw [← Fin.sum_univ_eq_sum_range (fun e => share V c row d e) 800768]
  exact Finset.sum_congr rfl fun e _ => share_of_lt V c row d e.val e.isLt

/-- The array the call leaves, as one function of the messages and the target words. -/
abbrev accG (V : VT) (c : Dev nD) : S51200x128.Idx → EReal :=
  fun i => ∑ e : Fin 800768, hot (BitVec.ofNat 32 (i 0).val) (dstA V c (ix2 (0 : Fin 1) e)) * msgA V c (ix2 e (i 1))

/-- That function at an index whose coordinates are `row` and `d`. -/
theorem accG_apply (V : VT) (c : Dev nD) (i : S51200x128.Idx) (row : ℕ) (d : Fin 128) (h0 : (i 0).val = row)
    (h1 : (i 1).val = d.val) :
    accG V c i = ∑ e : Fin 800768, hot (BitVec.ofNat 32 row) (dstA V c (ix2 (0 : Fin 1) e)) * msgA V c (ix2 e d) := by
  subst h0
  have e : d = i 1 := Fin.ext h1.symm
  subst e
  rfl

/-- What a point that ends a half (`q = 390`) writes back is its block of that array: entry `(r, d)` of the block sits at
    `(25600 p + r, d)` of the array, and the invariant there sums the edges below `2048 · 391 = 800768`: all of them. -/
theorem flushed_eq (V : VT) (c : Dev nD) (t : Fin cfg2.N) (hf : (cfg2.win 2).flush t = true) :
    (dat2 V c).flushed 2 t = ((cfg2.win 2).blk t).view.read (Elt Ideal) (accG V c) := by
  have hq : t.val % 391 = 390 := (flush2_2 t).mp hf
  obtain ⟨-, -, -, -, e4, e5, -⟩ := idx_facts t
  show (cfg2.win 2).cut (grid2.coords t) ((dat2 V c).after 2 t) = _
  rw [after2_2]
  funext j
  rw [View.read_apply]
  refine Eq.trans ?_ (cast_eq _ _).symm
  have hj0 : (j 0).val < 25600 := (j 0).isLt
  have hj1 : (j 1).val < 128 := (j 1).isLt
  have hx : (cfg2.win 2).xinj (grid2.coords t) j = ix2 (⟨(j 0).val, hj0⟩ : Fin 25600) (⟨(j 1).val, hj1⟩ : Fin 128) := by
    funext a; match a with | ⟨0, _⟩ => rfl | ⟨1, _⟩ => rfl
  refine (congrArg (accBlk V c t.val t.isLt) hx).trans ?_
  refine (accBlk_apply V c t.val t.isLt ⟨(j 0).val, hj0⟩ ⟨(j 1).val, hj1⟩).trans ?_
  rw [hq, sum_share]
  refine (accG_apply V c (((cfg2.win 2).blk t).view.emb j) (t.val / 391 * 25600 + (j 0).val) ⟨(j 1).val, hj1⟩ ?_ ?_).symm
  · show win2_2.index t (0 : Fin 2) * 25600 + 1 * (j 0).val = _; omega
  · show win2_2.index t (1 : Fin 2) * 128 + 1 * (j 1).val = (j 1).val; omega

/-- An index of the array is in point `t`'s output block iff each coordinate is in the block's range on its axis. -/
theorem mem_blk (t : Fin cfg2.N) (i : S51200x128.Idx) :
    i ∈ ((cfg2.win 2).blk t).view.set ↔ ∀ a : Fin 2, win2_2.index t a * S25600x128.size a ≤ (i a).val
      ∧ (i a).val < win2_2.index t a * S25600x128.size a + S25600x128.size a := by
  show i ∈ ((View.whole main_v13).slice (win2_2.rect t)).set ↔ _
  rw [View.set_slice_whole, Rect.mem_set_unit]
  exact Iff.rfl

/-- Row `n` is in the block written back when its half `n / 25600` ends, at point `391 (n / 25600) + 390`. -/
theorem cover (i : S51200x128.Idx) :
    ∃ t : Fin cfg2.N, (cfg2.win 2).flush t = true ∧ i ∈ ((cfg2.win 2).blk t).view.set := by
  have hi0 : (i 0).val < 51200 := (i 0).isLt
  have hi1 : (i 1).val < 128 := (i 1).isLt
  have hN : cfg2.N = 782 := N_2
  have ht : (i 0).val / 25600 * 391 + 390 < cfg2.N := by rw [hN]; omega
  obtain ⟨t, htv⟩ : ∃ t : Fin cfg2.N, t.val = (i 0).val / 25600 * 391 + 390 := ⟨⟨_, ht⟩, rfl⟩
  obtain ⟨-, -, -, -, e4, e5, -⟩ := idx_facts t
  refine ⟨t, (flush2_2 t).mpr (by omega), ?_⟩
  rw [mem_blk]
  intro a
  match a with
  | ⟨0, _⟩ =>
    show win2_2.index t (0 : Fin 2) * 25600 ≤ (i 0).val ∧ (i 0).val < win2_2.index t (0 : Fin 2) * 25600 + 25600
    omega
  | ⟨1, _⟩ =>
    show win2_2.index t (1 : Fin 2) * 128 ≤ (i 1).val ∧ (i 1).val < win2_2.index t (1 : Fin 2) * 128 + 128
    omega

/-- The two points that end a half write back the two halves of the rows, so the array ends at that function. -/
theorem accOut_eq (V : VT) (c : Dev nD) : accOut V c = accG V c :=
  (dat2 V c).arrAt_eq_of_cover 2 (accG V c) (flushed_eq V c) cover

end ScatterArr

/-- After the scatter-add call, entry `(n, d)` is the sum over the edges `e` of the weight of (`n`, edge `e`'s target word) times
    message `(e, d)`. -/
theorem region2_value (V : VT) (c : Dev nD) (n : Fin 51200) (d : Fin 128) :
    accOut V c (ix2 n d) = ∑ e : Fin 800768, hot (BitVec.ofNat 32 n.val) (dstA V c (ix2 (0 : Fin 1) e)) * msgA V c (ix2 e d) :=
  (congrFun (ScatterArr.accOut_eq V c) (ix2 n d)).trans (ScatterArr.accG_apply V c (ix2 n d) n.val d rfl rfl)

end Cert.KernelIdeal.KVal

end
-- ==== Proof.KernelValue.lean ====
/-
  The kernel's result buffer holds the specification's function of the launched arrays.

  Through the three calls: the projected row `n` is `lin` of the launched features below 50000 and zero on the padded
  rows (a zero row times the weights); an edge's message is the one-hot-weighted sum of the projected rows, which picks the
  row its source word names when the word is below 51200 and nothing otherwise, so it is the projected row when the word
  is a node's number and zero when it is not (a padded row, or no row at all); a padded edge carries the source word 50000,
  hence a zero message, and drops out of a node's sum whatever its target word; what is left is the sum over the
  800000 launched edges of the weight of (node, target word) times the message.
-/
import proofs.«412696_j13280038879717_2_alg».proof.Proof.HostGlue
import proofs.«412696_j13280038879717_2_alg».proof.Proof.Linear
import proofs.«412696_j13280038879717_2_alg».proof.Proof.Gather
import proofs.«412696_j13280038879717_2_alg».proof.Proof.Scatter

noncomputable section

open scoped BigOperators

namespace Cert.KernelIdeal.KVal

open Idealize.ShloMosaic Idealize.ShloMosaic.ValueIdx Idealize.ShloMosaic.TcCoe Idealize.SL.Sem
open Cert.KernelIdeal Cert.KernelIdeal.Gen Cert.Spec

/-- The message of an edge whose source word is `s`: the projected row `s` names, zero when it names no node. -/
def msgw (x : (⟨2, ![50000, 128]⟩ : Shape).Idx → EReal) (W : (⟨2, ![128, 128]⟩ : Shape).Idx → EReal) (s : BitVec 32)
    (d : Fin 128) : EReal :=
  if h : s.toNat < 50000 then lin x W ⟨s.toNat, h⟩ d else 0

theorem msg_eq_msgw (x : (⟨2, ![50000, 128]⟩ : Shape).Idx → EReal) (ei : (⟨2, ![2, 800000]⟩ : Shape).Idx → BitVec 32)
    (W : (⟨2, ![128, 128]⟩ : Shape).Idx → EReal) (e : Fin 800000) (d : Fin 128) :
    msg x ei W e d = msgw x W (ei (ix2 (0 : Fin 2) e)) d := rfl

/-- The padding word 50000 names no node. -/
theorem msgw_pad (x : (⟨2, ![50000, 128]⟩ : Shape).Idx → EReal) (W : (⟨2, ![128, 128]⟩ : Shape).Idx → EReal) (d : Fin 128) :
    msgw x W 50000#32 d = 0 := dif_neg (by decide)

/-- A word equals the word of a number below 2³² exactly when it reads as that number. -/
theorem ofNat_eq_iff (n : ℕ) (hn : n < 2 ^ 32) (s : BitVec 32) : BitVec.ofNat 32 n = s ↔ n = s.toNat := by
  constructor
  · intro h
    have := congrArg BitVec.toNat h
    rw [BitVec.toNat_ofNat, Nat.mod_eq_of_lt hn] at this
    exact this
  · intro h
    rw [h, BitVec.ofNat_toNat, BitVec.setWidth_eq]

/-- A one-hot-weighted sum over the 51200 rows picks the row the word names, and nothing when it names none. -/
theorem onehot_sum (s : BitVec 32) (f : Fin 51200 → EReal) :
    ∑ n : Fin 51200, hot (BitVec.ofNat 32 n.val) s * f n = if h : s.toNat < 51200 then f ⟨s.toNat, h⟩ else 0 := by
  by_cases h : s.toNat < 51200
  · rw [dif_pos h, Finset.sum_eq_single (⟨s.toNat, h⟩ : Fin 51200)]
    · rw [(ofNat_eq_iff s.toNat (by omega) s).mpr rfl, hot_self, one_mul]
    · intro n _ hn
      rw [hot_of_ne, zero_mul]
      intro he
      exact hn (Fin.ext ((ofNat_eq_iff n.val (by have := n.isLt; omega) s).mp he))
    · intro h'; exact absurd (Finset.mem_univ _) h'
  · rw [dif_neg h]
    refine Finset.sum_eq_zero fun n _ => ?_
    rw [hot_of_ne, zero_mul]
    intro he
    have := (ofNat_eq_iff n.val (by have := n.isLt; omega) s).mp he
    have hn := n.isLt
    omega

variable (m : (ℓ : Loc nD τ sig) → Buf (Elt Ideal) ℓ) (ρ : Dev nD → PrngReg)

/-- The projected rows: `lin` of the launched arrays below 50000, zero on the padded rows. -/
theorem h_apply (c : Dev nD) (n : Fin 51200) (d : Fin 128) :
    hOut (V2 m ρ) c (ix2 n d) = if h : n.val < 50000 then lin (xArg m c) (wArg m c) ⟨n.val, h⟩ d else 0 := by
  rw [region0_value]
  by_cases h : n.val < 50000
  · rw [dif_pos h]
    unfold lin
    refine Finset.sum_congr rfl fun k _ => ?_
    rw [xpad_apply, dif_pos h, wt_apply]
  · rw [dif_neg h]
    refine Finset.sum_eq_zero fun k _ => ?_
    rw [xpad_apply, dif_neg h, zero_mul]

/-- The messages: the message of the edge's source word, the padding word on the padded edges. -/
theorem msg_apply (c : Dev nD) (e : Fin 800768) (d : Fin 128) :
    msgOut (V8 m ρ) c (ix2 e d)
      = msgw (xArg m c) (wArg m c) (if h : e.val < 800000 then eiArg m c (ix2 (0 : Fin 2) ⟨e.val, h⟩) else 50000#32) d := by
  rw [region1_value, src_apply]
  generalize (if h : e.val < 800000 then eiArg m c (ix2 (0 : Fin 2) ⟨e.val, h⟩) else 50000#32) = s
  have hsum : ∑ n : Fin 51200, hot (BitVec.ofNat 32 n.val) s * hA (V8 m ρ) c (ix2 n d)
      = ∑ n : Fin 51200, hot (BitVec.ofNat 32 n.val) s * (fun n : Fin 51200 => hOut (V2 m ρ) c (ix2 n d)) n :=
    Finset.sum_congr rfl fun n _ => by rw [congrFun (h_carried m ρ c) (ix2 n d)]
  rw [hsum, onehot_sum]
  unfold msgw
  by_cases h1 : s.toNat < 51200
  · rw [dif_pos h1, h_apply]
  · rw [dif_neg h1, dif_neg (by omega)]

/-- A node's sum: over the launched edges, the weight of (node, target word) times the edge's message. -/
theorem acc_apply (c : Dev nD) (n : Fin 50000) (d : Fin 128) :
    accOut (V9 m ρ) c (ix2 (⟨n.val, by omega⟩ : Fin 51200) d)
      = ∑ e : Fin 800000, hot (BitVec.ofNat 32 n.val) (eiArg m c (ix2 (1 : Fin 2) e)) * msg (xArg m c) (eiArg m c) (wArg m c) e d := by
  rw [region2_value]
  symm
  refine Fintype.sum_of_injective (Fin.castLE (by decide : 800000 ≤ 800768)) (Fin.castLE_injective _) _ _ ?_ ?_
  · intro e he
    have hlt : ¬ e.val < 800000 := fun h => he ⟨⟨e.val, h⟩, Fin.ext rfl⟩
    rw [congrFun (msg_carried m ρ c) (ix2 e d), msg_apply, dif_neg hlt, msgw_pad, mul_zero]
  · intro e
    have hlt : (Fin.castLE (by decide : 800000 ≤ 800768) e).val < 800000 := e.isLt
    rw [dst_apply, dif_pos hlt, congrFun (msg_carried m ρ c) (ix2 _ d), msg_apply, dif_pos hlt, msg_eq_msgw]
    rfl

/-- THE KERNEL'S VALUE: the result buffer at the last boundary is the specification's function of the launched arrays. -/
theorem result_eq (c : Dev nD) : resultA m ρ c = G (xArg m c) (eiArg m c) (wArg m c) (bArg m c) := by
  funext i
  obtain ⟨n, d, rfl⟩ : ∃ (n : Fin 50000) (d : Fin 128), i = ix2 n d := ⟨i 0, i 1, eq_ix2 i⟩
  rw [result_apply, G_ix2, acc_apply]
  rfl

end Cert.KernelIdeal.KVal

end
-- ==== Proof.RefValue.lean ====
/-
  The reference program's result as the specification's function, given that every source word is a node's number.

  The reference projects `h = x Wᵀ` by one matrix product, wraps a negative source word by adding the number of nodes, takes
  row `src` of `h` for each edge (an index outside the table would be clamped into it), and adds the rows into a zero array
  at the rows the target words name, dropping an edge whose target word names no row; then adds the bias.
-/
import proofs.«412696_j13280038879717_2_alg».proof.Proof.Gen.ReferenceIdeal.Run
import proofs.«412696_j13280038879717_2_alg».proof.Proof.Gen.ReferenceIdeal.Read
import proofs.«412696_j13280038879717_2_alg».proof.Proof.Spec
import Idealize.ShloMosaic.Lib.ValueIdx
import Idealize.ShloMosaic.Lib.StableHlo.Predicate
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec
open Idealize.ShloMosaic.StableHlo.Predicate (toInt_eq_toNat_of_lt toInt_ofNat_small slt_iff_toNat)

/-! ## The row gather read at an index -/

/-- The gather's dimension numbers: rows of a [50000 × 128] table taken at an [800000 × 1] column of start indices. -/
abbrev gD := gather_S50000x128_S800000x1_S800000x128_1_0_n_n_0_1_1128

/-- The start-indices index result index `j` reads its one start component at: row `j 0` of the column. -/
theorem gather_siIdx (j : S800000x128.Idx)
    (c : Fin gD.startIndexMap.length) :
    gD.siIdx j c = ix2 (j 0) (0 : Fin 1) := by
  funext b
  refine Fin.ext ?_
  match b with
  | ⟨0, _⟩ => rfl
  | ⟨1, _⟩ =>
    have hc : c.val < 1 := c.isLt
    show c.val = 0
    omega

/-- On the row axis the operand index is the start word read signed and clamped into the table. -/
theorem gather_axis0 (j : S800000x128.Idx) (idx : S800000x1.Idx → BitVec 32) :
    (gD.operandIdx j idx 0).val = min (idx (ix2 (j 0) (0 : Fin 1))).toInt.toNat 49999 := by
  show gD.start j idx 0 + gD.batchCoord j 0 + gD.offCoord j 0 = _
  rw [GatherDims.batchCoord_eq_zero _ _ _ (by decide), GatherDims.offCoord_eq_zero _ _ _ (by decide)]
  unfold GatherDims.start
  rw [dif_pos (show (0 : Fin S50000x128.rank) ∈ gD.startIndexMap by decide), gather_siIdx]
  rfl

/-- On the feature axis the operand index is the result's feature coordinate. -/
theorem gather_axis1 (j : S800000x128.Idx) (idx : S800000x1.Idx → BitVec 32) :
    (gD.operandIdx j idx 1).val = (j 1).val := by
  show gD.start j idx 1 + gD.batchCoord j 1 + gD.offCoord j 1 = _
  rw [GatherDims.batchCoord_eq_zero _ _ _ (by decide)]
  unfold GatherDims.start GatherDims.offCoord
  rw [dif_neg (show ¬(1 : Fin S50000x128.rank) ∈ gD.startIndexMap by decide),
    dif_pos (show (1 : Fin S50000x128.rank) ∈ gD.sKept by decide)]
  show 0 + 0 + (j 1).val = (j 1).val
  omega

/-- THE GATHER AT (e, d): row `idx[e, 0]` of the table at feature `d`, when that word is a row's number. -/
theorem gather_row {α : Type} (x : S50000x128.Idx → α) (idx : S800000x1.Idx → BitVec 32) (e : Fin 800000) (d : Fin 128)
    (h : (idx (ix2 e (0 : Fin 1))).toNat < 50000) :
    Host.gather gD x idx (ix2 e d) = x (ix2 ⟨(idx (ix2 e (0 : Fin 1))).toNat, h⟩ d) := by
  unfold Host.gather
  congr 1
  funext a
  refine Fin.ext ?_
  match a with
  | ⟨0, _⟩ =>
    refine (gather_axis0 (ix2 e d) idx).trans ?_
    show min (idx (ix2 e (0 : Fin 1))).toInt.toNat 49999 = (idx (ix2 e (0 : Fin 1))).toNat
    rw [toInt_eq_toNat_of_lt (by omega), Int.toNat_natCast]
    omega
  | ⟨1, _⟩ => exact gather_axis1 (ix2 e d) idx

/-! ## The accumulating scatter read at an index -/

/-- The scatter's dimension numbers: [800000 × 128] update rows added into a [50000 × 128] array at the rows an
    [800000 × 1] column of words names. -/
abbrev sD := scatter_S50000x128_S800000x1_S800000x128_1_0_0_1

/-- The scatter-indices index update index `j` reads its one start component at: row `j 0` of the column. -/
theorem scatter_siIdx (j : S800000x128.Idx) (c : Fin sD.scatterDimsToOperandDims.length) :
    sD.siIdx j c = ix2 (j 0) (0 : Fin 1) := by
  funext b
  refine Fin.ext ?_
  match b with
  | ⟨0, _⟩ => rfl
  | ⟨1, _⟩ =>
    have hc : c.val < 1 := c.isLt
    show c.val = 0
    omega

/-- On the row axis the window starts at the target word, read signed. -/
theorem scatter_start0 (j : S800000x128.Idx) (idx : S800000x1.Idx → BitVec 32) :
    sD.start j idx 0 = (idx (ix2 (j 0) (0 : Fin 1))).toInt := by
  unfold ScatterDims.start
  rw [dif_pos (show (0 : Fin S50000x128.rank) ∈ sD.scatterDimsToOperandDims by decide), scatter_siIdx]
  rfl

/-- On the feature axis the window starts at zero. -/
theorem scatter_start1 (j : S800000x128.Idx) (idx : S800000x1.Idx → BitVec 32) :
    sD.start j idx 1 = 0 := by
  unfold ScatterDims.start
  rw [dif_neg (show ¬(1 : Fin S50000x128.rank) ∈ sD.scatterDimsToOperandDims by decide)]

/-- The row axis is an inserted axis: no window coordinate. -/
theorem scatter_window0 (j : S800000x128.Idx) : sD.window j 0 = 0 := by
  unfold ScatterDims.window
  rw [dif_neg (show ¬(0 : Fin S50000x128.rank) ∈ sD.sKept by decide)]

/-- On the feature axis the window coordinate is the update's feature coordinate. -/
theorem scatter_window1 (j : S800000x128.Idx) : sD.window j 1 = (j 1).val := by
  unfold ScatterDims.window
  rw [dif_pos (show (1 : Fin S50000x128.rank) ∈ sD.sKept by decide)]
  rfl

/-- Update (e, d') lands on entry (n, d) exactly when edge `e`'s target word is the number `n` and the features agree. -/
theorem scatter_hit (idx : S800000x1.Idx → BitVec 32) (e : Fin 800000) (d' : Fin 128) (n : Fin 50000) (d : Fin 128) :
    sD.resultIdx? (ix2 e d') idx = some (ix2 n d) ↔ (BitVec.ofNat 32 n.val = idx (ix2 e (0 : Fin 1)) ∧ d' = d) := by
  have hn : n.val < 50000 := n.isLt
  have hd' : d'.val < 128 := d'.isLt
  have s0 : sD.start (ix2 e d') idx 0 = (idx (ix2 e (0 : Fin 1))).toInt := scatter_start0 (ix2 e d') idx
  have s1 : sD.start (ix2 e d') idx 1 = 0 := scatter_start1 (ix2 e d') idx
  have w0 : sD.window (ix2 e d') 0 = 0 := scatter_window0 (ix2 e d')
  have w1 : sD.window (ix2 e d') 1 = d'.val := scatter_window1 (ix2 e d')
  unfold ScatterDims.resultIdx?
  split
  · rename_i h
    rw [Option.some.injEq]
    constructor
    · intro hf
      have e0 : (sD.start (ix2 e d') idx 0 + (sD.window (ix2 e d') 0 : Int)).toNat = n.val :=
        congrArg (fun f : S50000x128.Idx => (f 0).val) hf
      have e1 : (sD.start (ix2 e d') idx 1 + (sD.window (ix2 e d') 1 : Int)).toNat = d.val :=
        congrArg (fun f : S50000x128.Idx => (f 1).val) hf
      have h0 := (h 0).1
      rw [s0, w0] at e0 h0
      rw [s1, w1] at e1
      refine ⟨BitVec.eq_of_toInt_eq ?_, Fin.ext (by omega)⟩
      rw [toInt_ofNat_small n.val (by omega)]
      omega
    · rintro ⟨hw, rfl⟩
      funext a
      refine Fin.ext ?_
      match a with
      | ⟨0, _⟩ =>
        show (sD.start (ix2 e d') idx 0 + (sD.window (ix2 e d') 0 : Int)).toNat = n.val
        rw [s0, w0, ← hw, toInt_ofNat_small n.val (by omega)]
        omega
      | ⟨1, _⟩ =>
        show (sD.start (ix2 e d') idx 1 + (sD.window (ix2 e d') 1 : Int)).toNat = d'.val
        rw [s1, w1]
        omega
  · rename_i h
    constructor
    · intro hf
      exact absurd hf (by simp)
    · rintro ⟨hw, rfl⟩
      refine absurd (fun a => ?_) h
      match a with
      | ⟨0, _⟩ =>
        show 0 ≤ sD.start (ix2 e d') idx 0 + (sD.window (ix2 e d') 0 : Int) ∧
          sD.start (ix2 e d') idx 0 + (sD.window (ix2 e d') 0 : Int) < (50000 : Nat)
        rw [s0, w0, ← hw, toInt_ofNat_small n.val (by omega)]
        omega
      | ⟨1, _⟩ =>
        show 0 ≤ sD.start (ix2 e d') idx 1 + (sD.window (ix2 e d') 1 : Int) ∧
          sD.start (ix2 e d') idx 1 + (sD.window (ix2 e d') 1 : Int) < (128 : Nat)
        rw [s1, w1]
        omega

/-- THE SCATTER-ADD AT (n, d): the operand's entry plus, over the edges, the update row's entry at `d` weighted by the
    one-hot compare of the number `n` with the edge's target word. -/
theorem scatter_add_apply (x : S50000x128.Idx → EReal) (idx : S800000x1.Idx → BitVec 32) (upd : S800000x128.Idx → EReal)
    (n : Fin 50000) (d : Fin 128) :
    Host.scatterAdd (F := Ideal) (φ := .f32) sD x idx upd (ix2 n d)
      = x (ix2 n d) + ∑ e : Fin 800000, hot (BitVec.ofNat 32 n.val) (idx (ix2 e (0 : Fin 1))) * upd (ix2 e d) := by
  show Ideal.hostScatterAdd sD x idx upd (ix2 n d) = _
  unfold Ideal.hostScatterAdd
  rw [Finset.sum_filter, sum_idx2]
  refine congrArg (fun t : EReal => x (ix2 n d) + t) (Finset.sum_congr rfl fun e _ => ?_)
  simp only [scatter_hit]
  by_cases hw : BitVec.ofNat 32 n.val = idx (ix2 e (0 : Fin 1))
  · simp only [hw, true_and, hot_self, one_mul]
    rw [Finset.sum_ite_eq' Finset.univ d (fun d' => upd (ix2 e d')), if_pos (Finset.mem_univ d)]
  · simp only [hw, false_and, if_false, Finset.sum_const_zero, hot_of_ne hw, zero_mul]

/-! ## The stages of the reference read at an index -/

/-- The projection: entry (r, d) of the matrix product with the transposed weights is `∑ₖ x[r, k] · W[d, k]`. -/
theorem proj_apply (x0 : S50000x128.Idx → EReal) (x2 : S128x128.Idx → EReal) (r : Fin 50000) (d : Fin 128) :
    val_main_v1 (F := Ideal) x0 x2 (ix2 r d) = lin x0 x2 r d := by
  rw [val_main_v1_apply]
  unfold lin
  refine Finset.sum_congr rfl fun k _ => ?_
  rw [val_main_v0_apply]
  have el : lidx_main_v1 (ix2 r d) k = ix2 r k := funext fun a => Fin.ext (by
    match a with
    | ⟨0, _⟩ => rfl
    | ⟨1, _⟩ => rfl)
  have er : idx_main_v0 (ridx_main_v1 (ix2 r d) k) = ix2 d k := funext fun a => Fin.ext (by
    match a with
    | ⟨0, _⟩ => rfl
    | ⟨1, _⟩ => rfl)
  rw [el, er]

/-- The source word of edge `e` as the flat slice of row 0 reads it. -/
theorem src_flat (x1 : S2x800000.Idx → BitVec 32) (e : Fin 800000) :
    val_main_v3 (F := Ideal) x1 (ix1 e) = x1 (ix2 (0 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The target word of edge `e` as the column of scatter indices reads it. -/
theorem dst_col (x1 : S2x800000.Idx → BitVec 32) (e : Fin 800000) :
    val_main_v14 (F := Ideal) x1 (ix2 e (0 : Fin 1)) = x1 (ix2 (1 : Fin 2) e) := by
  rw [val_main_v14_apply, val_main_v5_apply, val_main_v4_apply]
  congr 1
  funext a
  refine Fin.ext ?_
  match a with
  | ⟨0, _⟩ => rfl
  | ⟨1, _⟩ => exact Nat.mod_eq_of_lt e.isLt

/-- A source word below 50000 is not negative, so the wrap-around select keeps it: the column of start indices
    reads the source word itself. -/
theorem src_col (x1 : S2x800000.Idx → BitVec 32) (e : Fin 800000) (h : (x1 (ix2 (0 : Fin 2) e)).toNat < 50000) :
    val_main_v11 (F := Ideal) x1 (ix2 e (0 : Fin 1)) = x1 (ix2 (0 : Fin 2) e) := by
  have hi : idx_main_v11 (ix2 e (0 : Fin 1)) = ix1 e := funext fun a => Fin.ext (by
    match a with
    | ⟨0, _⟩ => rfl)
  rw [val_main_v11_apply, hi, val_main_v10_apply, val_main_v7_apply, src_flat, val_main_v6_apply, val_main_c_apply]
  have hc : IntOp.cmpi .slt (x1 (ix2 (0 : Fin 2) e)) 0#32 = 0#1 :=
    eq_zero_of_ne_one fun h1 => by
      have := (slt_iff_toNat (a := x1 (ix2 (0 : Fin 2) e)) (b := 0#32) (by omega) (by decide)).mp h1
      simp at this
  rw [hc, select_zero]

/-- The message rows: entry (e, d) of the gathered array is the projected row of edge `e`'s source at feature `d`. -/
theorem msgs_apply (x0 : S50000x128.Idx → EReal) (x1 : S2x800000.Idx → BitVec 32) (x2 : S128x128.Idx → EReal)
    (hsrc : ∀ e : Fin 800000, (x1 (ix2 (0 : Fin 2) e)).toNat < 50000) (e : Fin 800000) (d : Fin 128) :
    val_main_v12 (F := Ideal) x0 x1 x2 (ix2 e d) = msg x0 x1 x2 e d := by
  have hw : val_main_v11 (F := Ideal) x1 (ix2 e (0 : Fin 1)) = x1 (ix2 (0 : Fin 2) e) := src_col x1 e (hsrc e)
  have h : (val_main_v11 (F := Ideal) x1 (ix2 e (0 : Fin 1))).toNat < 50000 := by rw [hw]; exact hsrc e
  unfold val_main_v12 msg
  rw [gather_row _ _ e d h, proj_apply, dif_pos (hsrc e)]
  congr 1
  exact Fin.ext (congrArg BitVec.toNat hw)

/-- The bias broadcast over the rows reads the bias at the feature coordinate. -/
theorem bias_apply (x3 : S128.Idx → EReal) (n : Fin 50000) (d : Fin 128) :
    val_main_v17 (F := Ideal) x3 (ix2 n d) = x3 (ix1 d) := by
  rw [val_main_v17_apply, val_main_v16_apply]
  congr 1
  funext a
  refine Fin.ext ?_
  match a with
  | ⟨0, _⟩ => rfl

/-- The array the scatter adds into is zero everywhere. -/
theorem zeros_apply (i : S50000x128.Idx) : val_main_v13 (F := Ideal) i = 0 := by
  rw [val_main_v13_apply, val_main_cst_apply]
  exact Ideal.ofBits_zero_f32

/-- The scatter-add's result at (n, d): over the edges, the message at feature `d` weighted by the one-hot compare of the
    number `n` with the edge's target word (the array added into is zero). -/
theorem sums_apply (x0 : S50000x128.Idx → EReal) (x1 : S2x800000.Idx → BitVec 32) (x2 : S128x128.Idx → EReal)
    (hsrc : ∀ e : Fin 800000, (x1 (ix2 (0 : Fin 2) e)).toNat < 50000) (n : Fin 50000) (d : Fin 128) :
    val_main_v15 (F := Ideal) x0 x1 x2 (ix2 n d)
      = ∑ e : Fin 800000, hot (BitVec.ofNat 32 n.val) (x1 (ix2 (1 : Fin 2) e)) * msg x0 x1 x2 e d := by
  unfold val_main_v15
  refine (scatter_add_apply _ _ _ n d).trans ?_
  rw [zeros_apply, zero_add]
  refine Finset.sum_congr rfl fun e _ => ?_
  rw [dst_col, msgs_apply x0 x1 x2 hsrc]

/-! ## The reference is the specification -/

/-- When every source word is a node's number, the reference's result array is the specification's. -/
theorem reference_value (x0 : S50000x128.Idx → EReal) (x1 : S2x800000.Idx → BitVec 32) (x2 : S128x128.Idx → EReal)
    (x3 : S128.Idx → EReal) (hsrc : ∀ e : Fin 800000, (x1 (ix2 (0 : Fin 2) e)).toNat < 50000) :
    val_main_v18 (F := Ideal) x0 x1 x2 x3 = G x0 x1 x2 x3 := by
  funext i
  obtain ⟨n, d, rfl⟩ : ∃ (n : Fin 50000) (d : Fin 128), i = ix2 n d := ⟨i 0, i 1, eq_ix2 i⟩
  rw [G_ix2, val_main_v18_apply, sums_apply x0 x1 x2 hsrc, bias_apply]
  unfold agg
  exact Ideal.addf_def (φ := .f32) _ _

end Cert.ReferenceIdeal.RefValue

end
-- ==== Proof.SrcRange.lean ====
/-
  What the precondition says of the edge list: every source word (row 0) is a node's number, `0 ≤ src < 50000`.
-/
import proofs.«412696_j13280038879717_2_alg».proof.Pre_finite_inputs
import proofs.«412696_j13280038879717_2_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value

noncomputable section

namespace Cert.Pre_finite_inputs.Range

open Idealize.ShloMosaic Idealize.ShloMosaic.ValueIdx Cert.Pre_finite_inputs

variable [Cert.Pre_finite_inputs.Facts]

/-- The scalar shape has one index. -/
instance subsingleton_scalar_idx : Subsingleton S_.Idx := ⟨fun a b => funext fun d => d.elim0⟩

/-- A 32-bit word that is at least 0 and below 50000 when read signed is below 50000 when read unsigned: a word with its
    top bit set reads negative. -/
theorem toNat_lt_of_signed (w : BitVec 32) (hge : IntOp.cmpi .sge w 0#32 = 1#1) (hlt : IntOp.cmpi .slt w 50000#32 = 1#1) :
    w.toNat < 50000 := by
  have h0 : (0#32 : BitVec 32).toInt ≤ w.toInt := IntOp.cmpi_sge.1 hge
  have h1 : w.toInt < (50000#32 : BitVec 32).toInt := IntOp.cmpi_slt.1 hlt
  have e0 : (0#32 : BitVec 32).toInt = 0 := by decide
  have e1 : (50000#32 : BitVec 32).toInt = 50000 := by decide
  rw [e0] at h0
  rw [e1] at h1
  rw [BitVec.toInt_eq_toNat_cond] at h0 h1
  have hw := w.isLt
  split at h0 <;> omega

/-- The printed precondition, all ones, makes every source word a number below 50000 (read unsigned: a negative word
    would read as 2³¹ or more). -/
theorem src_range (x0 : S50000x128.Idx → EReal) (x1 : S2x800000.Idx → BitVec 32) (x2 : S128x128.Idx → EReal)
    (x3 : S128.Idx → EReal) (h : fn (F := Ideal) x0 x1 x2 x3 = fun _ => 1#1) :
    ∀ e : Fin 800000, (x1 (ix2 (0 : Fin 2) e)).toNat < 50000 := by
  intro e
  -- the predicate at the scalar shape's one index: a conjunction whose last conjunct is the test of the source row
  have h0 := congrFun h ValueIdx.ix0
  dsimp only [fn, fn_part1] at h0
  have h1 := (IntOp.andi_eq_one.1 h0).2
  -- the reduction by `and` over the whole [1, 800000] mask is 1, so the mask is 1 at the entry (0, e)
  have h2 := Host.reduce_andi_all _ _ _ _ _ h1 (ix2 (0 : Fin 1) e)
  obtain ⟨hge, hlt⟩ := IntOp.andi_eq_one.1 h2
  -- entry (0, e) of the slice (row 0 of the edge list) is the edge list's entry (0, e)
  have hs : extractStridedSlice S1x800000 ![0, 0] x1 Facts.slices_S2x800000_S1x800000_0_0 (ix2 (0 : Fin 1) e)
      = x1 (ix2 (0 : Fin 2) e) :=
    extractStridedSlice_apply _ x1 _ _ _ (fun a => by
      match a with
      | ⟨0, _⟩ => rfl
      | ⟨1, _⟩ => show e.val = 0 + e.val; omega)
  refine toNat_lt_of_signed _ ?_ ?_
  · rw [← hs]; exact hge
  · rw [← hs]; exact hlt

end Cert.Pre_finite_inputs.Range

end
-- ==== Proof.lean ====
/-
  The certificate of a graph layer: node features projected by a weight matrix, gathered along the edges' source nodes,
  summed into the edges' target nodes, plus a bias — a kernel of three pipelined calls (the projection as a matrix product,
  the gather and the scatter-add each as a product with a one-hot matrix of compares) against a reference that projects,
  gathers by index and adds by segment.

  The three programs run from any memory (the frames). The kernel's idealization rewrote nothing. Over the extended reals
  the two idealized programs end with the same array when every source word of the edge list is a node's number, which
  the precondition states: the kernel's one-hot sums pick exactly the row the word names (one is the unit and zero
  annihilates on all of the extended reals, and sums may be taken in any order, so no finiteness is used), and the
  reference's index lookup, which would otherwise wrap or clamp the word, reads that same row. A target word that is no
  node's number is dropped by both.
-/
import proofs.«412696_j13280038879717_2_alg».proof.Defs
import proofs.«412696_j13280038879717_2_alg».proof.Proof.Gen.Kernel
import proofs.«412696_j13280038879717_2_alg».proof.Proof.Gen.Kernel.Skeleton
import proofs.«412696_j13280038879717_2_alg».proof.Proof.Gen.Kernel.Loops
import proofs.«412696_j13280038879717_2_alg».proof.Proof.Gen.Kernel.Launch
import proofs.«412696_j13280038879717_2_alg».proof.Proof.Gen.Kernel.Points
import proofs.«412696_j13280038879717_2_alg».proof.Proof.Gen.Kernel.Frame
import proofs.«412696_j13280038879717_2_alg».proof.Proof.Gen.KernelIdeal
import proofs.«412696_j13280038879717_2_alg».proof.Proof.Gen.KernelIdeal.Skeleton
import proofs.«412696_j13280038879717_2_alg».proof.Proof.Gen.KernelIdeal.Loops
import proofs.«412696_j13280038879717_2_alg».proof.Proof.Gen.KernelIdeal.Launch
import proofs.«412696_j13280038879717_2_alg».proof.Proof.Gen.KernelIdeal.Points
import proofs.«412696_j13280038879717_2_alg».proof.Proof.Gen.KernelIdeal.Frame
import proofs.«412696_j13280038879717_2_alg».proof.Proof.Gen.ReferenceIdeal
import proofs.«412696_j13280038879717_2_alg».proof.Proof.Gen.ReferenceIdeal.Run
import proofs.«412696_j13280038879717_2_alg».proof.Proof.Gen.ReferenceIdeal.Read
import proofs.«412696_j13280038879717_2_alg».proof.Proof.Gen.Pre_finite_inputs
import proofs.«412696_j13280038879717_2_alg».proof.Proof.KernelRun
import proofs.«412696_j13280038879717_2_alg».proof.Proof.KernelValue
import proofs.«412696_j13280038879717_2_alg».proof.Proof.RefValue
import proofs.«412696_j13280038879717_2_alg».proof.Proof.SrcRange
import Idealize.ShloMosaic.Adequacy
import Idealize.ShloMosaic.Init

noncomputable section

namespace Cert.Proof

open Idealize.ShloMosaic Idealize.SL.Sem

/-- The kernel as printed runs from any memory and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the specification's function of the arguments: the kernel by its three calls'
    values, the reference by its stages read under the precondition's range of the source words. -/
theorem algebraic : Cert.algebraic_KernelIdeal_ReferenceIdeal := by
  intro m ρ m' ρ' hpre hagree
  refine ⟨fun c => Cert.Spec.G (Cert.KernelIdeal.KVal.xArg m c) (Cert.KernelIdeal.KVal.eiArg m c)
    (Cert.KernelIdeal.KVal.wArg m c) (Cert.KernelIdeal.KVal.bArg m c), ?_, ?_⟩
  · exact (θ_run Cert.KernelIdeal.defs _ _).mono
      (fun r h c => ⟨(h c).1.trans (Cert.KernelIdeal.KVal.result_eq m ρ c), (h c).2⟩)
      (Cert.KernelIdeal.KVal.run_value (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v18_eq (F := Ideal) _ _ _ _).trans
      (Cert.ReferenceIdeal.RefValue.reference_value _ _ _ _
        (Cert.Pre_finite_inputs.Range.src_range _ _ _ _ (hpre c)))

/-- The idealization rewrote no operation: nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
